-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000x1 : Shape := ⟨2, ![640000, 1]⟩
abbrev S128x384 : Shape := ⟨2, ![128, 384]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S640000x1 : S_.BroadcastsInDim S640000x1 (![] : Fin 0 → Fin S640000x1.rank)
  reducesTo_S640000x1_S_d0_1 : S640000x1.ReducesTo [0, 1] S_
  bcast_S_S128x384 : S_.BroadcastsInDim S128x384 (![] : Fin 0 → Fin S128x384.rank)
  reducesTo_S128x384_S_d0_1 : S128x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg7 : FVec F S128 .f32) (main_arg8 : IVec S640000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S640000 32 := broadcastInDim S640000 ![] bcast_S_S640000 main_c_14
  let main_v40 : IVec S640000 1 := cmpi .sge main_arg8 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v38 main_v41
  let main_c_16 : IVec S_ 32 := constantI S_ 32 40000#32
  let main_v43 : IVec S640000 32 := broadcastInDim S640000 ![] bcast_S_S640000 main_c_16
  let main_v44 : IVec S640000 1 := cmpi .slt main_arg8 main_v43
  let main_c_17 : IVec S_ 1 := constantI S_ 1 1#1
  let main_v45 : IVec S_ 1 := (fun x v => Host.reduce IntOp.andi x v reducesTo_S640000_S_d0 h_S_) main_v44 main_c_17
  let main_v46 : IVec S_ 1 := andi main_v42 main_v45
  main_v46

def fn_part1 {F : FTy → Type} [FloatOps F] (main_arg4 : FVec F S128x384 .f32) (main_arg5 : FVec F S128x128 .f32) (main_arg6 : FVec F S128 .f32) (main_arg7 : FVec F S128 .f32) (main_arg8 : IVec S640000 32) (main_v13 : IVec S_ 1) (main_v16 : IVec S640000x1 1) : IVec S_ 1 :=
  let main_c_5 : IVec S_ 1 := constantI S_ 1 1#1
  let main_v17 : IVec S_ 1 := (fun x v => Host.reduce IntOp.andi x v reducesTo_S640000x1_S_d0_1 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S40000x128 .f32) (main_arg1 : FVec F S640000x128 .f32) (main_arg2 : FVec F S640000x1 .f32) (main_arg3 : FVec F S640000x1 .f32) (main_arg4 : FVec F S128x384 .f32) (main_arg5 : FVec F S128x128 .f32) (main_arg6 : FVec F S128 .f32) (main_arg7 : FVec F S128 .f32) (main_arg8 : IVec S640000 32) (main_arg9 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S640000x1 .f32 := Host.absf main_arg2
  let main_cst_2 : FVec F S_ .f32 := constant S_ .f32 0x7F800000#32
  let main_v10 : FVec F S640000x1 .f32 := broadcastInDim S640000x1 ![] bcast_S_S640000x1 main_cst_2
  let main_v11 : IVec S640000x1 1 := cmpf .olt main_v9 main_v10
  let main_c_3 : IVec S_ 1 := constantI S_ 1 1#1
  let main_v12 : IVec S_ 1 := (fun x v => Host.reduce IntOp.andi x v reducesTo_S640000x1_S_d0_1 h_S_) main_v11 main_c_3
  let main_v13 : IVec S_ 1 := andi main_v8 main_v12
  let main_v14 : FVec F S640000x1 .f32 := Host.absf main_arg3
  let main_cst_4 : FVec F S_ .f32 := constant S_ .f32 0x7F800000#32
  let main_v15 : FVec F S640000x1 .f32 := broadcastInDim S640000x1 ![] bcast_S_S640000x1 main_cst_4
  let main_v16 : IVec S640000x1 1 := cmpf .olt main_v14 main_v15
  fn_part1 (F := F) main_arg4 main_arg5 main_arg6 main_arg7 main_arg8 main_v13 main_v16
-- ==== Kernel.lean ====
abbrev S40000x128 : Shape := ⟨2, ![40000, 128]⟩
abbrev S640000x128 : Shape := ⟨2, ![640000, 128]⟩
abbrev S640000x1 : Shape := ⟨2, ![640000, 1]⟩
abbrev S128x384 : Shape := ⟨2, ![128, 384]⟩
abbrev S128x128 : Shape := ⟨2, ![128, 128]⟩
abbrev S128 : Shape := ⟨1, ![128]⟩
abbrev S640000 : Shape := ⟨1, ![640000]⟩
abbrev S_ : Shape := ⟨0, ![]⟩
abbrev S1 : Shape := ⟨1, ![1]⟩
abbrev S1x1 : Shape := ⟨2, ![1, 1]⟩
abbrev S8000x128 : Shape := ⟨2, ![8000, 128]⟩
abbrev S1x128 : Shape := ⟨2, ![1, 128]⟩
abbrev S10000x128 : Shape := ⟨2, ![10000, 128]⟩
abbrev S10000x1 : Shape := ⟨2, ![10000, 1]⟩
abbrev S10000 : Shape := ⟨1, ![10000]⟩

abbrev nBuf : Space → Nat
  | .hbm => 94
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000x1, .f32⟩
  | .hbm, ⟨3, _⟩ => ⟨S640000x1, .f32⟩
  | .hbm, ⟨4, _⟩ => ⟨S128x384, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S1, .i32⟩
  | .hbm, ⟨42, _⟩ => ⟨S_, .i32⟩
  | .hbm, ⟨43, _⟩ => ⟨S640000x1, .i32⟩
  | .hbm, ⟨44, _⟩ => ⟨S640000x1, .i1⟩
  | .hbm, ⟨45, _⟩ => ⟨S1x1, .i32⟩
  | .hbm, ⟨46, _⟩ => ⟨S640000x1, .i32⟩
  | .hbm, ⟨47, _⟩ => ⟨S640000x1, .i1⟩
  | .hbm, ⟨48, _⟩ => ⟨S640000x1, .i1⟩
  | .hbm, ⟨49, _⟩ => ⟨S_, .i1⟩
  | .hbm, ⟨50, _⟩ => ⟨S640000, .i1⟩
  | .hbm, ⟨51, _⟩ => ⟨S640000x128, .f32⟩
  | .hbm, ⟨52, _⟩ => ⟨S640000x128, .i1⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S640000x128, .f32⟩
  | .hbm, ⟨63, _⟩ => ⟨S_, .f32⟩
  | .hbm, ⟨64, _⟩ => ⟨S40000x128, .f32⟩
  | .hbm, ⟨65, _⟩ => ⟨S640000x1, .i32⟩
  | .hbm, ⟨66, _⟩ => ⟨S40000x128, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S1, .i32⟩
  | .hbm, ⟨76, _⟩ => ⟨S_, .i32⟩
  | .hbm, ⟨77, _⟩ => ⟨S640000x1, .i32⟩
  | .hbm, ⟨78, _⟩ => ⟨S640000x1, .i1⟩
  | .hbm, ⟨79, _⟩ => ⟨S1x1, .i32⟩
  | .hbm, ⟨80, _⟩ => ⟨S640000x1, .i32⟩
  | .hbm, ⟨81, _⟩ => ⟨S640000x1, .i1⟩
  | .hbm, ⟨82, _⟩ => ⟨S640000x1, .i1⟩
  | .hbm, ⟨83, _⟩ => ⟨S_, .i1⟩
  | .hbm, ⟨84, _⟩ => ⟨S640000, .i1⟩
  | .hbm, ⟨85, _⟩ => ⟨S640000x128, .f32⟩
  | .hbm, ⟨86, _⟩ => ⟨S640000x128, .i1⟩
  | .hbm, ⟨87, _⟩ => ⟨S_, .f32⟩
  | .hbm, ⟨88, _⟩ => ⟨S640000x128, .f32⟩
  | .hbm, ⟨89, _⟩ => ⟨S640000x128, .f32⟩
  | .hbm, ⟨90, _⟩ => ⟨S128x128, .f32⟩
  | .hbm, ⟨91, _⟩ => ⟨S1x128, .f32⟩
  | .hbm, ⟨92, _⟩ => ⟨S1x128, .f32⟩
  | .hbm, ⟨93, _⟩ => ⟨S640000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S8000x128, .f32⟩
  | .local _ .vmem, ⟨10, _⟩ => ⟨S8000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S10000x1, .f32⟩
  | .local _ .vmem, ⟨15, _⟩ => ⟨S10000x1, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_cst : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S40000x128 : S_.BroadcastsInDim S40000x128 (![] : Fin 0 → Fin S40000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  broadcasts_S10000x1_S10000x128 : S10000x1.Broadcasts S10000x128
  reduces_S10000x128_S10000 : S10000x128.Reduces [1] S10000
  shapeCasts_S10000_S10000x1 : S10000.ShapeCasts S10000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S40000x128_S640000x1_S640000x128_1_0_n_n_0_1_1128_wf : GatherDims.WF S40000x128 S640000x1 S640000x128 [1] [0] [] [0] [] 1 ![1, 128]
  dot_S8000x128_S128x128_S8000x128_1_0_0_1_n_n_wf : DotDims.WF S8000x128 S128x128 S8000x128 [1] [0] [0] [1] [] []
  scatter_S40000x128_S640000x1_S640000x128_1_0_0_1_wf : ScatterDims.WF S40000x128 S640000x1 S640000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S640000x128.size a
  hwx0_2 : ∀ i : grid0.Coords, EltTy.bits .f32 = 32 ∨ (Rect.block (s := S640000x128) S8000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S640000x128.size a
  hwx0_6 : ∀ i : grid0.Coords, EltTy.bits .f32 = 32 ∨ (Rect.block (s := S640000x128) S8000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S640000x128.size a
  hwx1_0 : ∀ i : grid1.Coords, EltTy.bits .f32 = 32 ∨ (Rect.block (s := S640000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S640000x1.size a
  hwx1_2 : ∀ i : grid1.Coords, EltTy.bits .f32 = 32 ∨ (Rect.block (s := S640000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S640000x128.size a
  hwx1_5 : ∀ i : grid1.Coords, EltTy.bits .f32 = 32 ∨ (Rect.block (s := S640000x128) S10000x128.size (cc1_transform_5 i) (hinb1_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000x1 : Shape := ⟨2, ![640000, 1]⟩
abbrev S128x384 : Shape := ⟨2, ![128, 384]⟩
abbrev S128x128 : Shape := ⟨2, ![128, 128]⟩
abbrev S128 : Shape := ⟨1, ![128]⟩
abbrev S640000 : Shape := ⟨1, ![640000]⟩
abbrev S_ : Shape := ⟨0, ![]⟩
abbrev S640000x384 : Shape := ⟨2, ![640000, 384]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000x1, .f32⟩
  | .hbm, ⟨3, _⟩ => ⟨S640000x1, .f32⟩
  | .hbm, ⟨4, _⟩ => ⟨S128x384, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x384, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S_, .f32⟩
  | .hbm, ⟨50, _⟩ => ⟨S640000, .f32⟩
  | .hbm, ⟨51, _⟩ => ⟨S640000x1, .f32⟩
  | .hbm, ⟨52, _⟩ => ⟨S_, .f32⟩
  | .hbm, ⟨53, _⟩ => ⟨S640000x1, .f32⟩
  | .hbm, ⟨54, _⟩ => ⟨S640000x1, .f32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S640000, .f32⟩
  | .hbm, ⟨60, _⟩ => ⟨S640000x1, .f32⟩
  | .hbm, ⟨61, _⟩ => ⟨S_, .f32⟩
  | .hbm, ⟨62, _⟩ => ⟨S640000x1, .f32⟩
  | .hbm, ⟨63, _⟩ => ⟨S640000x1, .f32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S640000x1, .f32⟩
  | .hbm, ⟨68, _⟩ => ⟨S640000x1, .f32⟩
  | .hbm, ⟨69, _⟩ => ⟨S640000x1, .f32⟩
  | .hbm, ⟨70, _⟩ => ⟨S640000x128, .f32⟩
  | .hbm, ⟨71, _⟩ => ⟨S640000x128, .f32⟩
  | .hbm, ⟨72, _⟩ => ⟨S1x128, .f32⟩
  | .hbm, ⟨73, _⟩ => ⟨S640000x128, .f32⟩
  | .hbm, ⟨74, _⟩ => ⟨S640000x128, .f32⟩
  | .hbm, ⟨75, _⟩ => ⟨S1x128, .f32⟩
  | .hbm, ⟨76, _⟩ => ⟨S640000x128, .f32⟩
  | .hbm, ⟨77, _⟩ => ⟨S640000x128, .f32⟩
  | .hbm, ⟨78, _⟩ => ⟨S_, .f32⟩
  | .hbm, ⟨79, _⟩ => ⟨S640000x128, .f32⟩
  | .hbm, ⟨80, _⟩ => ⟨S640000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S_S640000x128 : S_.BroadcastsInDim S640000x128 (![] : Fin 0 → Fin S640000x128.rank)
  bcast_S_S40000x128 : S_.BroadcastsInDim S40000x128 (![] : Fin 0 → Fin S40000x128.rank)
  bcast_S640000x1_S640000x128_0_1 : S640000x1.BroadcastsInDim S640000x128 (![0, 1] : Fin 2 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  gather_S40000x128_S640000x1_S640000x128_1_0_n_n_0_1_1128_wf : GatherDims.WF S40000x128 S640000x1 S640000x128 [1] [0] [] [0] [] 1 ![1, 128]
  dot_S640000x384_S128x384_S640000x128_1_1_0_0_n_n_wf : DotDims.WF S640000x384 S128x384 S640000x128 [1] [1] [0] [0] [] []
  scatter_S40000x128_S640000x1_S640000x128_1_0_0_1_wf : ScatterDims.WF S40000x128 S640000x1 S640000x128 [1] [0] [0] 1
  dot_S640000x128_S128x128_S640000x128_1_1_0_0_n_n_wf : DotDims.WF S640000x128 S128x128 S640000x128 [1] [1] [0] [0] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x384_S128x384_S640000x128_1_1_0_0_n_n : DotDims S640000x384 S128x384 S640000x128 where
  lhsContracting := [1]
  rhsContracting := [1]
  lhsNonContracting := [0]
  rhsNonContracting := [0]
  lhsBatch := []
  rhsBatch := []
  wf := dot_S640000x384_S128x384_S640000x128_1_1_0_0_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S640000x128_S128x128_S640000x128_1_1_0_0_n_n : DotDims S640000x128 S128x128 S640000x128 where
  lhsContracting := [1]
  rhsContracting := [1]
  lhsNonContracting := [0]
  rhsNonContracting := [0]
  lhsBatch := []
  rhsBatch := []
  wf := dot_S640000x128_S128x128_S640000x128_1_1_0_0_n_n_wf

class Facts : Prop extends Facts₀ where

variable [Facts]
-- ==== Proof.Take.lean ====
/-
  Taking rows of a node table by an index vector, with out-of-range rows filled: negative indices are first wrapped by
  the table's height; a row whose wrapped index lies in 0 .. 39999 is the gathered row, any other row is filled with a
  fixed word. Where the index is in range to begin with, nothing is wrapped and the row is the gathered row.
-/
import proofs.«427158_j69784628625694_1_alg».proof.Proof.Gen.KernelIdeal
import Idealize.ShloMosaic.Lib.ValueIdx
import Idealize.ShloMosaic.Lib.ValueLayout
import Idealize.ShloMosaic.Lib.Pipeline.Value
import Idealize.ShloMosaic.PureOps.Reduce

noncomputable section

open scoped BigOperators

namespace Cert.KernelIdeal.Val

open Cert.KernelIdeal Cert.KernelIdeal.Facts₀ Cert.KernelIdeal.Facts Idealize.ShloMosaic Idealize.ShloMosaic.ValueIdx

/-- The index vector with negative entries wrapped by 40000, as a column. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- Per row: is the wrapped index within 0 .. 39999. -/
def inRange (idx : IVec S640000 32) : IVec S640000 1 :=
  Host.reduce IntOp.andi
    (andi (cmpi .sge (wrapCol idx) (broadcastInDim S640000x1 ![] bcast_S_S640000x1 (constantI S_ 32 0#32)))
      (cmpi .sle (wrapCol idx)
        (broadcastInDim S640000x1 ![0, 1] bcast_S1x1_S640000x1_0_1 (broadcastInDim S1x1 ![1] bcast_S1_S1x1_1 (constantI S1 32 39999#32)))))
    (constantI S_ 1 1#1) reducesTo_S640000x1_S640000_d1 h_S_

/-- The rows of A the index vector names, out-of-range rows filled. -/
def takeFill (A : FVec Ideal S40000x128 .f32) (idx : IVec S640000 32) : FVec Ideal S640000x128 .f32 :=
  select (broadcastInDim S640000x128 ![0] bcast_S640000_S640000x128_0 (inRange idx))
    (Host.gather gather_S40000x128_S640000x1_S640000x128_1_0_n_n_0_1_1128 A (wrapCol idx))
    (broadcastInDim S640000x128 ![] bcast_S_S640000x128 (constant S_ .f32 0x7FC00000#32))

/-- A one-bit word that is not 1 is 0. -/
private theorem bv1_eq_zero_of_ne_one (c : BitVec 1) (h : ¬ c = 1#1) : c = 0#1 := by
  revert c; decide

/-- A non-negative word is not below zero in the signed order. -/
private theorem cmpi_slt_zero_of_nonneg (x : BitVec 32) (h : 0 ≤ x.toInt) : IntOp.cmpi .slt x 0#32 = 0#1 := by
  apply bv1_eq_zero_of_ne_one
  rw [IntOp.cmpi_slt]
  have hz : (0#32 : BitVec 32).toInt = 0 := by decide
  omega

/-- The zero splat over the index vector's shape reads 0 everywhere. -/
private theorem splat0_apply (i : S640000.Idx) :
    broadcastInDim S640000 ![] bcast_S_S640000 (constantI S_ 32 0#32) i = 0#32 :=
  broadcastInDim_apply _ bcast_S_S640000 _ i (fun a => a.elim0) (fun a => a.elim0)

/-- A non-negative index is not wrapped. -/
theorem wrapCol_of_nonneg (idx : IVec S640000 32) (e : Fin 640000) (h0 : 0 ≤ (idx (ix1 e)).toInt) :
    wrapCol idx (ix2 e (0 : Fin 1)) = idx (ix1 e) := by
  unfold wrapCol
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  rw [select_apply]
  have hc : cmpi .slt idx (broadcastInDim S640000 ![] bcast_S_S640000 (constantI S_ 32 0#32)) (ix1 e) = 0#1 := by
    show IntOp.cmpi .slt (idx (ix1 e)) _ = 0#1
    rw [splat0_apply]
    exact cmpi_slt_zero_of_nonneg _ h0
  rw [hc, select_zero]

/-- The zero splat over the column shape reads 0 everywhere. -/
private theorem splat0_col_apply (i : S640000x1.Idx) :
    broadcastInDim S640000x1 ![] bcast_S_S640000x1 (constantI S_ 32 0#32) i = 0#32 :=
  broadcastInDim_apply _ bcast_S_S640000x1 _ i (fun a => a.elim0) (fun a => a.elim0)

/-- The upper bound, broadcast from one word through a 1 × 1 array over the column shape, reads 39999 everywhere. -/
private theorem splatHi_col_apply (i : S640000x1.Idx) :
    broadcastInDim S640000x1 ![0, 1] bcast_S1x1_S640000x1_0_1
      (broadcastInDim S1x1 ![1] bcast_S1_S1x1_1 (constantI S1 32 39999#32)) i = 39999#32 := by
  refine (broadcastInDim_apply _ bcast_S1x1_S640000x1_0_1 _ i (ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])).trans ?_
  exact broadcastInDim_apply _ bcast_S1_S1x1_1 _ _ (ix1 (0 : Fin 1)) (fun a => match a with
    | ⟨0, _⟩ => by show (0 : Nat) = if (1 : Nat) = 1 then 0 else _; rw [if_pos rfl])

/-- A left fold by `and` from 1 over one-bit words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_one f l (fun n hn => h n (List.mem_cons_of_mem _ hn))

/-- An index within 0 .. 39999 passes the range test: the only element reduced into row e is the conjunction of the
    two comparisons of the unwrapped index with the bounds, and both hold. -/
private theorem inRange_of_bounds (idx : IVec S640000 32) (e : Fin 640000)
    (h0 : 0 ≤ (idx (ix1 e)).toInt) (h1 : (idx (ix1 e)).toInt < 40000) : inRange idx (ix1 e) = 1#1 := by
  unfold inRange
  rw [Host.reduce_eq_foldl, constantI_apply]
  refine foldl_andi_one _ _ (fun i hi => ?_)
  rw [List.mem_filter] at hi
  have hd : reducesTo_S640000x1_S640000_d1.drop i = ix1 e := of_decide_eq_true hi.2
  have hv : ((reducesTo_S640000x1_S640000_d1.drop i) 0 : Nat) = (i 0 : Nat) :=
    Shape.ReducesTo.drop_apply_val_of_eq _ i 0 0
  rw [hd] at hv
  have hi0 : i 0 = e := Fin.ext hv.symm
  have hi1 : i 1 = (0 : Fin 1) := Fin.ext (by have := idx2_lt1 i; show (i 1).val = 0; omega)
  have hi' : i = ix2 e (0 : Fin 1) := by
    rw [eq_ix2 i, hi0, hi1]
    rfl
  subst hi'
  show IntOp.andi (IntOp.cmpi .sge (wrapCol idx (ix2 e (0 : Fin 1))) _) (IntOp.cmpi .sle (wrapCol idx (ix2 e (0 : Fin 1))) _) = 1#1
  rw [wrapCol_of_nonneg idx e h0, splat0_col_apply, splatHi_col_apply, IntOp.andi_eq_one, IntOp.cmpi_sge, IntOp.cmpi_sle]
  have hz : (0#32 : BitVec 32).toInt = 0 := by decide
  have hh : (39999#32 : BitVec 32).toInt = 39999 := by decide
  omega

/-- A row whose index is in range is the gathered row. -/
theorem takeFill_row (A : FVec Ideal S40000x128 .f32) (idx : IVec S640000 32) (e : Fin 640000) (k : Fin 128)
    (h0 : 0 ≤ (idx (ix1 e)).toInt) (h1 : (idx (ix1 e)).toInt < 40000) :
    takeFill A idx (ix2 e k) = Host.gather gather_S40000x128_S640000x1_S640000x128_1_0_n_n_0_1_1128 A (wrapCol idx) (ix2 e k) := by
  unfold takeFill
  rw [select_apply]
  have hm : broadcastInDim S640000x128 ![0] bcast_S640000_S640000x128_0 (inRange idx) (ix2 e k) = 1#1 := by
    refine (broadcastInDim_apply _ bcast_S640000_S640000x128_0 _ (ix2 e k) (ix1 e) (fun a => match a with
      | ⟨0, _⟩ => by show e.val = if (640000 : Nat) = 1 then 0 else e.val; rw [if_neg (by decide)])).trans ?_
    exact inRange_of_bounds idx e h0 h1
  rw [hm, select_one]

end Cert.KernelIdeal.Val

end
-- ==== Proof.HostA.lean ====
/-
  The first stretch of host operations, read as a value: the rows of the node table named by the destination indices,
  out-of-range rows filled.
-/
import proofs.«427158_j69784628625694_1_alg».proof.Proof.Gen.KernelIdeal.Launch
import proofs.«427158_j69784628625694_1_alg».proof.Proof.Take
import Idealize.ShloMosaic.Lib.StableHlo.Run

noncomputable section

open scoped BigOperators

namespace Cert.KernelIdeal.Val

open Cert.KernelIdeal Cert.KernelIdeal.Gen Cert.KernelIdeal.Facts₀ Cert.KernelIdeal.Facts
open Idealize.ShloMosaic Idealize.ShloMosaic.TcCoe Idealize.ShloMosaic.ValueIdx Idealize.SL.Sem Idealize.ShloMosaic.StableHlo

set_option maxHeartbeats 8000000 in
/-- After the first stretch, its result buffer holds the filled row take of the node table by the destination indices, whatever the contents it starts from. -/
theorem take_dst (V : Valuation τ sig (Elt Ideal)) :
    StableHlo.after hostOps0 V (Proc.devRef .tc main_v0)
      = takeFill (V (Proc.devRef .tc main_arg0)) (V (Proc.devRef .tc main_arg9)) := by
  after_results_simp
  simp only [TRef.toBuf, TRef.ofBuf, cast_eq]
  rfl

end Cert.KernelIdeal.Val

end
-- ==== Proof.HostB.lean ====
/-
  The second stretch of host operations, read as a value: the rows of the node table named by the source indices,
  out-of-range rows filled.
-/
import proofs.«427158_j69784628625694_1_alg».proof.Proof.Gen.KernelIdeal.Launch
import proofs.«427158_j69784628625694_1_alg».proof.Proof.Take
import Idealize.ShloMosaic.Lib.StableHlo.Run

noncomputable section

open scoped BigOperators

namespace Cert.KernelIdeal.Val

open Cert.KernelIdeal Cert.KernelIdeal.Gen Cert.KernelIdeal.Facts₀ Cert.KernelIdeal.Facts
open Idealize.ShloMosaic Idealize.ShloMosaic.TcCoe Idealize.ShloMosaic.ValueIdx Idealize.SL.Sem Idealize.ShloMosaic.StableHlo

set_option maxHeartbeats 8000000 in
/-- After the second stretch, its result buffer holds the filled row take of the node table by the source indices, whatever the contents it starts from. -/
theorem take_src (V : Valuation τ sig (Elt Ideal)) :
    StableHlo.after hostOps0_1 V (Proc.devRef .tc main_v1)
      = takeFill (V (Proc.devRef .tc main_arg0)) (V (Proc.devRef .tc main_arg8)) := by
  after_results_simp
  simp only [TRef.toBuf, TRef.ofBuf, cast_eq]
  rfl

end Cert.KernelIdeal.Val

end
-- ==== Proof.HostC.lean ====
/-
  The stretch of host operations after the scatter, read as a value: the rows of the scattered node table named by
  the source indices, out-of-range rows filled.
-/
import proofs.«427158_j69784628625694_1_alg».proof.Proof.Gen.KernelIdeal.Launch
import proofs.«427158_j69784628625694_1_alg».proof.Proof.Take
import Idealize.ShloMosaic.Lib.StableHlo.Run

noncomputable section

open scoped BigOperators

namespace Cert.KernelIdeal.Val

open Cert.KernelIdeal Cert.KernelIdeal.Gen Cert.KernelIdeal.Facts₀ Cert.KernelIdeal.Facts
open Idealize.ShloMosaic Idealize.ShloMosaic.TcCoe Idealize.ShloMosaic.ValueIdx Idealize.SL.Sem Idealize.ShloMosaic.StableHlo

set_option maxHeartbeats 8000000 in
/-- After that stretch, its result buffer holds the filled row take of the scattered table by the source indices, whatever the contents it starts from. -/
theorem take_node (V : Valuation τ sig (Elt Ideal)) :
    StableHlo.after hostOps1_1 V (Proc.devRef .tc main_v12)
      = takeFill (V (Proc.devRef .tc main_v11)) (V (Proc.devRef .tc main_arg8)) := by
  after_results_simp
  simp only [TRef.toBuf, TRef.ofBuf, cast_eq]
  rfl

end Cert.KernelIdeal.Val

end
-- ==== Proof.KeepA.lean ====
/-
  Which buffers the host stretches before the first region leave alone: an operation writes its result buffer only.
-/
import proofs.«427158_j69784628625694_1_alg».proof.Proof.Gen.KernelIdeal.Launch
import Idealize.ShloMosaic.Lib.StableHlo.Run

noncomputable section

open scoped BigOperators

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- No operation of `hostOps0` writes `main_arg0`. -/
theorem nw_hostOps0_main_arg0 : ∀ op ∈ (hostOps0 : List (HloOp τ sig (Elt F))), (Proc.devRef .tc main_arg0 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg1`. -/
theorem nw_hostOps0_main_arg1 : ∀ op ∈ (hostOps0 : List (HloOp τ sig (Elt F))), (Proc.devRef .tc main_arg1 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg2`. -/
theorem nw_hostOps0_main_arg2 : ∀ op ∈ (hostOps0 : List (HloOp τ sig (Elt F))), (Proc.devRef .tc main_arg2 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg4`. -/
theorem nw_hostOps0_main_arg4 : ∀ op ∈ (hostOps0 : List (HloOp τ sig (Elt F))), (Proc.devRef .tc main_arg4 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg5`. -/
theorem nw_hostOps0_main_arg5 : ∀ op ∈ (hostOps0 : List (HloOp τ sig (Elt F))), (Proc.devRef .tc main_arg5 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg6`. -/
theorem nw_hostOps0_main_arg6 : ∀ op ∈ (hostOps0 : List (HloOp τ sig (Elt F))), (Proc.devRef .tc main_arg6 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg7`. -/
theorem nw_hostOps0_main_arg7 : ∀ op ∈ (hostOps0 : List (HloOp τ sig (Elt F))), (Proc.devRef .tc main_arg7 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg8`. -/
theorem nw_hostOps0_main_arg8 : ∀ op ∈ (hostOps0 : List (HloOp τ sig (Elt F))), (Proc.devRef .tc main_arg8 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0` writes `main_arg9`. -/
theorem nw_hostOps0_main_arg9 : ∀ op ∈ (hostOps0 : List (HloOp τ sig (Elt F))), (Proc.devRef .tc main_arg9 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg1`. -/
theorem nw_hostOps0_1_main_arg1 : ∀ op ∈ (hostOps0_1 : List (HloOp τ sig (Elt F))), (Proc.devRef .tc main_arg1 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg2`. -/
theorem nw_hostOps0_1_main_arg2 : ∀ op ∈ (hostOps0_1 : List (HloOp τ sig (Elt F))), (Proc.devRef .tc main_arg2 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg4`. -/
theorem nw_hostOps0_1_main_arg4 : ∀ op ∈ (hostOps0_1 : List (HloOp τ sig (Elt F))), (Proc.devRef .tc main_arg4 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg5`. -/
theorem nw_hostOps0_1_main_arg5 : ∀ op ∈ (hostOps0_1 : List (HloOp τ sig (Elt F))), (Proc.devRef .tc main_arg5 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg6`. -/
theorem nw_hostOps0_1_main_arg6 : ∀ op ∈ (hostOps0_1 : List (HloOp τ sig (Elt F))), (Proc.devRef .tc main_arg6 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg7`. -/
theorem nw_hostOps0_1_main_arg7 : ∀ op ∈ (hostOps0_1 : List (HloOp τ sig (Elt F))), (Proc.devRef .tc main_arg7 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg8`. -/
theorem nw_hostOps0_1_main_arg8 : ∀ op ∈ (hostOps0_1 : List (HloOp τ sig (Elt F))), (Proc.devRef .tc main_arg8 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_arg9`. -/
theorem nw_hostOps0_1_main_arg9 : ∀ op ∈ (hostOps0_1 : List (HloOp τ sig (Elt F))), (Proc.devRef .tc main_arg9 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_1` writes `main_v0`. -/
theorem nw_hostOps0_1_main_v0 : ∀ op ∈ (hostOps0_1 : List (HloOp τ sig (Elt F))), (Proc.devRef .tc main_v0 : DevRef τ sig) ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg1`. -/
theorem nw_hostOps0_2_main_arg1 : ∀ op ∈ (hostOps0_2 : List (HloOp τ sig (Elt F))), (Proc.devRef .tc main_arg1 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg2`. -/
theorem nw_hostOps0_2_main_arg2 : ∀ op ∈ (hostOps0_2 : List (HloOp τ sig (Elt F))), (Proc.devRef .tc main_arg2 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg5`. -/
theorem nw_hostOps0_2_main_arg5 : ∀ op ∈ (hostOps0_2 : List (HloOp τ sig (Elt F))), (Proc.devRef .tc main_arg5 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg6`. -/
theorem nw_hostOps0_2_main_arg6 : ∀ op ∈ (hostOps0_2 : List (HloOp τ sig (Elt F))), (Proc.devRef .tc main_arg6 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg7`. -/
theorem nw_hostOps0_2_main_arg7 : ∀ op ∈ (hostOps0_2 : List (HloOp τ sig (Elt F))), (Proc.devRef .tc main_arg7 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg8`. -/
theorem nw_hostOps0_2_main_arg8 : ∀ op ∈ (hostOps0_2 : List (HloOp τ sig (Elt F))), (Proc.devRef .tc main_arg8 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_arg9`. -/
theorem nw_hostOps0_2_main_arg9 : ∀ op ∈ (hostOps0_2 : List (HloOp τ sig (Elt F))), (Proc.devRef .tc main_arg9 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_v0`. -/
theorem nw_hostOps0_2_main_v0 : ∀ op ∈ (hostOps0_2 : List (HloOp τ sig (Elt F))), (Proc.devRef .tc main_v0 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps0_2` writes `main_v1`. -/
theorem nw_hostOps0_2_main_v1 : ∀ op ∈ (hostOps0_2 : List (HloOp τ sig (Elt F))), (Proc.devRef .tc main_v1 : DevRef τ sig) ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Val

end
-- ==== Proof.KeepB.lean ====
/-
  Which buffers the host stretches between the two regions leave alone: an operation writes its result buffer only.
-/
import proofs.«427158_j69784628625694_1_alg».proof.Proof.Gen.KernelIdeal.Launch
import Idealize.ShloMosaic.Lib.StableHlo.Run

noncomputable section

open scoped BigOperators

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- No operation of `hostOps1` writes `main_arg2`. -/
theorem nw_hostOps1_main_arg2 : ∀ op ∈ (hostOps1 : List (HloOp τ sig (Elt F))), (Proc.devRef .tc main_arg2 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1` writes `main_arg5`. -/
theorem nw_hostOps1_main_arg5 : ∀ op ∈ (hostOps1 : List (HloOp τ sig (Elt F))), (Proc.devRef .tc main_arg5 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1` writes `main_arg6`. -/
theorem nw_hostOps1_main_arg6 : ∀ op ∈ (hostOps1 : List (HloOp τ sig (Elt F))), (Proc.devRef .tc main_arg6 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1` writes `main_arg7`. -/
theorem nw_hostOps1_main_arg7 : ∀ op ∈ (hostOps1 : List (HloOp τ sig (Elt F))), (Proc.devRef .tc main_arg7 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1` writes `main_arg8`. -/
theorem nw_hostOps1_main_arg8 : ∀ op ∈ (hostOps1 : List (HloOp τ sig (Elt F))), (Proc.devRef .tc main_arg8 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1_1` writes `main_arg2`. -/
theorem nw_hostOps1_1_main_arg2 : ∀ op ∈ (hostOps1_1 : List (HloOp τ sig (Elt F))), (Proc.devRef .tc main_arg2 : DevRef τ sig) ∉ op.writes :=
  List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1_1` writes `main_arg5`. -/
theorem nw_hostOps1_1_main_arg5 : ∀ op ∈ (hostOps1_1 : List (HloOp τ sig (Elt F))), (Proc.devRef .tc main_arg5 : DevRef τ sig) ∉ op.writes :=
  List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1_1` writes `main_arg6`. -/
theorem nw_hostOps1_1_main_arg6 : ∀ op ∈ (hostOps1_1 : List (HloOp τ sig (Elt F))), (Proc.devRef .tc main_arg6 : DevRef τ sig) ∉ op.writes :=
  List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1_1` writes `main_arg7`. -/
theorem nw_hostOps1_1_main_arg7 : ∀ op ∈ (hostOps1_1 : List (HloOp τ sig (Elt F))), (Proc.devRef .tc main_arg7 : DevRef τ sig) ∉ op.writes :=
  List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1_2` writes `main_arg2`. -/
theorem nw_hostOps1_2_main_arg2 : ∀ op ∈ (hostOps1_2 : List (HloOp τ sig (Elt F))), (Proc.devRef .tc main_arg2 : DevRef τ sig) ∉ op.writes :=
  List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation of `hostOps1_2` writes `main_v12`. -/
theorem nw_hostOps1_2_main_v12 : ∀ op ∈ (hostOps1_2 : List (HloOp τ sig (Elt F))), (Proc.devRef .tc main_v12 : DevRef τ sig) ∉ op.writes :=
  List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Val

end
-- ==== Proof.HostVals.lean ====
/-
  The host operations around the two regions, read as values: what each array a region stages holds when the region
  is entered, as a term of the launch contents of the arguments (and, for the second region, of the first region's
  output array). A stretch's result buffers hold its operations' terms; every other buffer keeps its contents; a region
  changes its own arrays only.
-/
import proofs.«427158_j69784628625694_1_alg».proof.Proof.Gen.KernelIdeal.Frame
import proofs.«427158_j69784628625694_1_alg».proof.Proof.Take
import proofs.«427158_j69784628625694_1_alg».proof.Proof.HostA
import proofs.«427158_j69784628625694_1_alg».proof.Proof.HostB
import proofs.«427158_j69784628625694_1_alg».proof.Proof.HostC
import proofs.«427158_j69784628625694_1_alg».proof.Proof.KeepA
import proofs.«427158_j69784628625694_1_alg».proof.Proof.KeepB
import Idealize.ShloMosaic.Lib.StableHlo.Run

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The node table, the edge features, the norm factors, the two weight matrices, gain, bias and the two index vectors
    as launched, named by their literal types. -/
abbrev argX (c : Dev nD) : FVec Ideal S40000x128 .f32 := m ((c : Thread nD τ).loc main_arg0)
abbrev argH (c : Dev nD) : FVec Ideal S640000x128 .f32 := m ((c : Thread nD τ).loc main_arg1)
abbrev argSn (c : Dev nD) : FVec Ideal S640000x1 .f32 := m ((c : Thread nD τ).loc main_arg2)
abbrev argW1 (c : Dev nD) : FVec Ideal S128x384 .f32 := m ((c : Thread nD τ).loc main_arg4)
abbrev argW2 (c : Dev nD) : FVec Ideal S128x128 .f32 := m ((c : Thread nD τ).loc main_arg5)
abbrev argGa (c : Dev nD) : FVec Ideal S128 .f32 := m ((c : Thread nD τ).loc main_arg6)
abbrev argBe (c : Dev nD) : FVec Ideal S128 .f32 := m ((c : Thread nD τ).loc main_arg7)
abbrev argSrc (c : Dev nD) : IVec S640000 32 := m ((c : Thread nD τ).loc main_arg8)
abbrev argDst (c : Dev nD) : IVec S640000 32 := m ((c : Thread nD τ).loc main_arg9)

/-! ## The short stretches, from any contents -/

/-- The three 128-column slices of the first weight matrix, transposed. -/
theorem slice_lo (V : Valuation τ sig (Elt Ideal)) :
    StableHlo.after hostOps0_2 V (Proc.devRef .tc main_v3)
      = transpose S128x128 [1, 0] (extractStridedSlice S128x128 ![0, 0] (V (Proc.devRef .tc main_arg4)) slices_S128x384_S128x128_0_0) transposes_S128x128_S128x128_1_0 := by
  after_results
theorem slice_mid (V : Valuation τ sig (Elt Ideal)) :
    StableHlo.after hostOps0_2 V (Proc.devRef .tc main_v5)
      = transpose S128x128 [1, 0] (extractStridedSlice S128x128 ![0, 128] (V (Proc.devRef .tc main_arg4)) slices_S128x384_S128x128_0_128) transposes_S128x128_S128x128_1_0 := by
  after_results
theorem slice_hi (V : Valuation τ sig (Elt Ideal)) :
    StableHlo.after hostOps0_2 V (Proc.devRef .tc main_v7)
      = transpose S128x128 [1, 0] (extractStridedSlice S128x128 ![0, 256] (V (Proc.devRef .tc main_arg4)) slices_S128x384_S128x128_0_256) transposes_S128x128_S128x128_1_0 := by
  after_results

/-- The scatter-add of the message rows into a zero table, by the destination indices as a column. -/
theorem scattered (V : Valuation τ sig (Elt Ideal)) :
    StableHlo.after hostOps1 V (Proc.devRef .tc main_v11)
      = Host.scatterAdd (F := Ideal) scatter_S40000x128_S640000x1_S640000x128_1_0_0_1
          (broadcastInDim S40000x128 ![] bcast_S_S40000x128 (constant (F := Ideal) S_ .f32 0x00000000#32))
          (broadcastInDim S640000x1 ![0] bcast_S640000_S640000x1_0 (V (Proc.devRef .tc main_arg9)))
          (V (Proc.devRef .tc main_v8)) := by
  after_results

/-- The second weight matrix transposed; gain and bias as one-row matrices. -/
theorem w2_t (V : Valuation τ sig (Elt Ideal)) :
    StableHlo.after hostOps1_2 V (Proc.devRef .tc main_v13)
      = transpose S128x128 [1, 0] (V (Proc.devRef .tc main_arg5)) transposes_S128x128_S128x128_1_0 := by
  after_results
theorem gain_row (V : Valuation τ sig (Elt Ideal)) :
    StableHlo.after hostOps1_2 V (Proc.devRef .tc main_v14)
      = shapeCast S1x128 (V (Proc.devRef .tc main_arg6)) shapeCasts_S128_S1x128 := by
  after_results; rfl
theorem bias_row (V : Valuation τ sig (Elt Ideal)) :
    StableHlo.after hostOps1_2 V (Proc.devRef .tc main_v15)
      = shapeCast S1x128 (V (Proc.devRef .tc main_arg7)) shapeCasts_S128_S1x128 := by
  after_results; rfl

/-! ## A buffer no stretch writes, and no region stages as an output, keeps its launch contents -/

/-- Up to the first region. -/
theorem W3_keep (c : Dev nD) (b : Ref sig .tc)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) :
    W3 m ρ c (Proc.devRef .tc b) = m ((c : Thread nD τ).loc b) :=
  (StableHlo.after_of_forall_not_mem _ _ h2).trans
    ((StableHlo.after_of_forall_not_mem _ _ h1).trans (StableHlo.after_of_forall_not_mem _ _ h0))

/-- Through the first region. -/
theorem W4_keep (c : Dev nD) (b : Ref sig .tc) (hb : ∀ w, Pipeline.arrRef spec0 w ≠ b)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) :
    W4 m ρ c (Proc.devRef .tc b) = m ((c : Thread nD τ).loc b) :=
  (W4_of_ne m ρ c b hb).trans (W3_keep m ρ c b h0 h1 h2)

/-! ## What the first region finds -/

theorem V3_v0 (c : Dev nD) : V3 m ρ c main_v0 = takeFill (argX m c) (argDst m c) :=
  calc V3 m ρ c main_v0
    _ = W2 m ρ c (Proc.devRef .tc main_v0) := (StableHlo.after_of_forall_not_mem _ _ (nw_hostOps0_2_main_v0 (F := Ideal)))
    _ = W1 m ρ c (Proc.devRef .tc main_v0) := (StableHlo.after_of_forall_not_mem _ _ (nw_hostOps0_1_main_v0 (F := Ideal)))
    _ = takeFill (argX m c) (argDst m c) := take_dst (W0 m ρ c)

theorem V3_v1 (c : Dev nD) : V3 m ρ c main_v1 = takeFill (argX m c) (argSrc m c) :=
  calc V3 m ρ c main_v1
    _ = W2 m ρ c (Proc.devRef .tc main_v1) := (StableHlo.after_of_forall_not_mem _ _ (nw_hostOps0_2_main_v1 (F := Ideal)))
    _ = takeFill (W1 m ρ c (Proc.devRef .tc main_arg0)) (W1 m ρ c (Proc.devRef .tc main_arg8)) := take_src (W1 m ρ c)
    _ = takeFill (argX m c) (argSrc m c) := by
      rw [show W1 m ρ c (Proc.devRef .tc main_arg0) = W0 m ρ c (Proc.devRef .tc main_arg0) from (StableHlo.after_of_forall_not_mem _ _ (nw_hostOps0_main_arg0 (F := Ideal))),
        show W1 m ρ c (Proc.devRef .tc main_arg8) = W0 m ρ c (Proc.devRef .tc main_arg8) from (StableHlo.after_of_forall_not_mem _ _ (nw_hostOps0_main_arg8 (F := Ideal)))]

theorem V3_arg1 (c : Dev nD) : V3 m ρ c main_arg1 = argH m c :=
  W3_keep m ρ c main_arg1 nw_hostOps0_main_arg1 nw_hostOps0_1_main_arg1 nw_hostOps0_2_main_arg1

/-- The first weight matrix reaches the third stretch as launched. -/
theorem W2_arg4 (c : Dev nD) : W2 m ρ c (Proc.devRef .tc main_arg4) = argW1 m c :=
  ((StableHlo.after_of_forall_not_mem _ _ (nw_hostOps0_1_main_arg4 (F := Ideal)))).trans (StableHlo.after_of_forall_not_mem _ _ (nw_hostOps0_main_arg4 (F := Ideal)))

theorem V3_v3 (c : Dev nD) : V3 m ρ c main_v3
    = transpose S128x128 [1, 0] (extractStridedSlice S128x128 ![0, 0] (argW1 m c) slices_S128x384_S128x128_0_0) transposes_S128x128_S128x128_1_0 := by
  refine (slice_lo (W2 m ρ c)).trans ?_; rw [W2_arg4]
theorem V3_v5 (c : Dev nD) : V3 m ρ c main_v5
    = transpose S128x128 [1, 0] (extractStridedSlice S128x128 ![0, 128] (argW1 m c) slices_S128x384_S128x128_0_128) transposes_S128x128_S128x128_1_0 := by
  refine (slice_mid (W2 m ρ c)).trans ?_; rw [W2_arg4]
theorem V3_v7 (c : Dev nD) : V3 m ρ c main_v7
    = transpose S128x128 [1, 0] (extractStridedSlice S128x128 ![0, 256] (argW1 m c) slices_S128x384_S128x128_0_256) transposes_S128x128_S128x128_1_0 := by
  refine (slice_hi (W2 m ρ c)).trans ?_; rw [W2_arg4]

/-! ## What the second region finds -/

/-- The message array the first region leaves. -/
theorem W4_v8 (c : Dev nD) : W4 m ρ c (Proc.devRef .tc main_v8) = (dat0 (V3 m ρ) c).arrAt 6 cfg0.N :=
  W4_arr m ρ c 6

/-- The scattered node table: the message rows added into a zero table by the destination indices. -/
abbrev nodeTable (c : Dev nD) : FVec Ideal S40000x128 .f32 :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 (argDst m c))
    (W4 m ρ c (Proc.devRef .tc main_v8))

theorem V7_v12 (c : Dev nD) : V7 m ρ c main_v12 = takeFill (nodeTable m ρ c) (argSrc m c) :=
  calc V7 m ρ c main_v12
    _ = W6 m ρ c (Proc.devRef .tc main_v12) := (StableHlo.after_of_forall_not_mem _ _ (nw_hostOps1_2_main_v12 (F := Ideal)))
    _ = takeFill (W5 m ρ c (Proc.devRef .tc main_v11)) (W5 m ρ c (Proc.devRef .tc main_arg8)) := take_node (W5 m ρ c)
    _ = takeFill (nodeTable m ρ c) (argSrc m c) := by
      rw [show W5 m ρ c (Proc.devRef .tc main_v11) = _ from scattered (W4 m ρ c),
        show W5 m ρ c (Proc.devRef .tc main_arg8) = W4 m ρ c (Proc.devRef .tc main_arg8) from (StableHlo.after_of_forall_not_mem _ _ (nw_hostOps1_main_arg8 (F := Ideal))),
        W4_keep m ρ c main_arg8 (by decide) nw_hostOps0_main_arg8 nw_hostOps0_1_main_arg8 nw_hostOps0_2_main_arg8,
        W4_keep m ρ c main_arg9 (by decide) nw_hostOps0_main_arg9 nw_hostOps0_1_main_arg9 nw_hostOps0_2_main_arg9]

/-- A buffer the three stretches between the regions leave alone. -/
theorem W6_keep (c : Dev nD) (b : Ref sig .tc)
    (h3 : ∀ op ∈ (hostOps1 : List (HloOp τ sig (Elt Ideal))), (Proc.devRef .tc b : DevRef τ sig) ∉ op.writes)
    (h4 : ∀ op ∈ (hostOps1_1 : List (HloOp τ sig (Elt Ideal))), (Proc.devRef .tc b : DevRef τ sig) ∉ op.writes) :
    W6 m ρ c (Proc.devRef .tc b) = W4 m ρ c (Proc.devRef .tc b) :=
  (StableHlo.after_of_forall_not_mem _ _ h4).trans (StableHlo.after_of_forall_not_mem _ _ h3)

theorem V7_v13 (c : Dev nD) : V7 m ρ c main_v13 = transpose S128x128 [1, 0] (argW2 m c) transposes_S128x128_S128x128_1_0 := by
  refine (w2_t (W6 m ρ c)).trans ?_
  rw [W6_keep m ρ c main_arg5 nw_hostOps1_main_arg5 nw_hostOps1_1_main_arg5,
    W4_keep m ρ c main_arg5 (by decide) nw_hostOps0_main_arg5 nw_hostOps0_1_main_arg5 nw_hostOps0_2_main_arg5]

theorem V7_arg2 (c : Dev nD) : V7 m ρ c main_arg2 = argSn m c :=
  ((StableHlo.after_of_forall_not_mem _ _ (nw_hostOps1_2_main_arg2 (F := Ideal)))).trans
    ((W6_keep m ρ c main_arg2 nw_hostOps1_main_arg2 nw_hostOps1_1_main_arg2).trans
      (W4_keep m ρ c main_arg2 (by decide) nw_hostOps0_main_arg2 nw_hostOps0_1_main_arg2 nw_hostOps0_2_main_arg2))

theorem V7_v14 (c : Dev nD) : V7 m ρ c main_v14 = shapeCast S1x128 (argGa m c) shapeCasts_S128_S1x128 := by
  refine (gain_row (W6 m ρ c)).trans ?_
  rw [W6_keep m ρ c main_arg6 nw_hostOps1_main_arg6 nw_hostOps1_1_main_arg6,
    W4_keep m ρ c main_arg6 (by decide) nw_hostOps0_main_arg6 nw_hostOps0_1_main_arg6 nw_hostOps0_2_main_arg6]

theorem V7_v15 (c : Dev nD) : V7 m ρ c main_v15 = shapeCast S1x128 (argBe m c) shapeCasts_S128_S1x128 := by
  refine (bias_row (W6 m ρ c)).trans ?_
  rw [W6_keep m ρ c main_arg7 nw_hostOps1_main_arg7 nw_hostOps1_1_main_arg7,
    W4_keep m ρ c main_arg7 (by decide) nw_hostOps0_main_arg7 nw_hostOps0_1_main_arg7 nw_hostOps0_2_main_arg7]

/-- The result buffer after the second region. -/
theorem W8_v16 (c : Dev nD) : W8 m ρ c (Proc.devRef .tc main_v16) = (dat1 (V7 m ρ) c).arrAt 5 cfg1.N :=
  W8_arr m ρ c 5

end Cert.KernelIdeal.Val

end
-- ==== Proof.Spec.lean ====
/-
  The two row functions of one message-passing layer, on the extended reals.

  An edge's message in output feature d is the rectifier of three inner products summed left to right: the
  destination node's row, the source node's row and the edge's own row, each against its 128 x 128 block of the
  first weight matrix. An edge's new feature is a layer normalisation of a row: the row (one gathered node row times
  the second weight matrix, scaled by the edge's norm factor) minus its mean, times the reciprocal square root of
  its variance plus a constant, times a gain, plus a bias, rectified. Mean and variance divide the row sums by 128.
  Both functions depend on ONE row of each edge-indexed array, which is what lets a block of rows be computed alone.
-/
import Idealize.ShloMosaic.PureOps.Ideal
import Idealize.ShloMosaic.Lib.ValueIdx

noncomputable section

open scoped BigOperators

namespace Cert.Spec

open Idealize.ShloMosaic

/-- The float word of 128, read at the ideal values (never evaluated: both programs carry the same word). -/
abbrev c128 : EReal := Ideal.ofBits .f32 0x43000000#32
/-- The float word of the normalisation's small constant, read at the ideal values (the same word on both sides). -/
abbrev ceps : EReal := Ideal.ofBits .f32 0x3727C5AC#32

/-- One edge's message in feature d: three inner products of rows r0, r1, r2 with column d of b0, b1, b2, summed
    left to right, rectified. -/
def msgRow (r0 r1 r2 : Fin 128 → EReal) (b0 b1 b2 : Fin 128 → Fin 128 → EReal) (d : Fin 128) : EReal :=
  max ((∑ k : Fin 128, r0 k * b0 k d + ∑ k : Fin 128, r1 k * b1 k d) + ∑ k : Fin 128, r2 k * b2 k d) 0

/-- The scaled linear image of a row g: feature d' is the inner product of g with column d' of w, times s. -/
def linRow (g : Fin 128 → EReal) (w : Fin 128 → Fin 128 → EReal) (s : EReal) (d' : Fin 128) : EReal :=
  (∑ k : Fin 128, g k * w k d') * s

/-- The mean of the scaled linear image over the 128 features. -/
def meanRow (g : Fin 128 → EReal) (w : Fin 128 → Fin 128 → EReal) (s : EReal) : EReal :=
  Ideal.div (∑ d' : Fin 128, linRow g w s d') c128

/-- The centred row. -/
def cenRow (g : Fin 128 → EReal) (w : Fin 128 → Fin 128 → EReal) (s : EReal) (d' : Fin 128) : EReal :=
  linRow g w s d' - meanRow g w s

/-- The variance: the mean of the centred row's squares. -/
def varRow (g : Fin 128 → EReal) (w : Fin 128 → Fin 128 → EReal) (s : EReal) : EReal :=
  Ideal.div (∑ d' : Fin 128, cenRow g w s d' * cenRow g w s d') c128

/-- One edge's new feature d: the centred row times the reciprocal root of (variance + constant), times the gain,
    plus the bias, rectified. -/
def updRow (g : Fin 128 → EReal) (w : Fin 128 → Fin 128 → EReal) (s : EReal) (ga be : Fin 128 → EReal) (d : Fin 128) : EReal :=
  max (cenRow g w s d * Ideal.rsqrt (varRow g w s + ceps) * ga d + be d) 0

end Cert.Spec

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.Pay0.lean ====
/-
  The message kernel's stored value at one entry of its block.
-/
import proofs.«427158_j69784628625694_1_alg».proof.Proof.Gen.KernelIdeal.Skeleton
import proofs.«427158_j69784628625694_1_alg».proof.Proof.Spec
import proofs.«427158_j69784628625694_1_alg».proof.Proof.LibKeepdims

noncomputable section

open scoped BigOperators

namespace Cert.KernelIdeal.Val

open Cert.KernelIdeal Cert.KernelIdeal.Gen Idealize.ShloMosaic Idealize.ShloMosaic.ValueIdx

/-- One of the three products of the message kernel at entry (r, d): the two operands, each
    narrowed (the identity on extended reals), multiplied into the zero accumulator, give the inner product of row r of
    the left operand with column d of the right one. -/
private theorem prod_apply (a : Vec Ideal S8000x128 .f32) (w : Vec Ideal S128x128 .f32)
    (hb : FTy.bf16.bits < FTy.f32.bits) (r : Fin 8000) (d : Fin 128) :
    FloatOps.matmul dot_S8000x128_S128x128_S8000x128_1_0_0_1_n_n none
        (truncf .bf16 a hb : FVec Ideal S8000x128 .bf16) (truncf .bf16 w hb : FVec Ideal S128x128 .bf16)
        (constant S8000x128 .f32 0x00000000#32) (ix2 r d)
      = ∑ k : Fin 128, a (ix2 r k) * w (ix2 k d) :=
  Keepdims.matmul_zero_apply dot_S8000x128_S128x128_S8000x128_1_0_0_1_n_n rfl rfl
    (fun _ _ => rfl) (fun _ _ => rfl) (fun _ _ => rfl) (fun _ _ => rfl) none _ _ r d

/-- Entry (r, d) of the block the message kernel stores: the message row function of row r of the three edge blocks
    and the three weight blocks. -/
theorem pay0_apply (x0 x1 x2 : Vec Ideal S8000x128 .f32) (x3 x4 x5 : Vec Ideal S128x128 .f32) (r : Fin 8000) (d : Fin 128) :
    k0_pay1 (F := Ideal) x0 x1 x2 x3 x4 x5 (ix2 r d)
      = Cert.Spec.msgRow (fun k => x0 (ix2 r k)) (fun k => x1 (ix2 r k)) (fun k => x2 (ix2 r k))
          (fun k d' => x3 (ix2 k d')) (fun k d' => x4 (ix2 k d')) (fun k d' => x5 (ix2 k d')) d := by
  unfold k0_pay1
  rw [shapeCast_self, shapeCast_self, shapeCast_self, shapeCast_self, shapeCast_self]
  refine (congrArg₂ max (congrArg₂ (· + ·) (congrArg₂ (· + ·) (prod_apply x0 x3 _ r d) (prod_apply x1 x4 _ r d))
    (prod_apply x2 x5 _ r d)) Ideal.ofBits_zero_f32).trans ?_
  rfl

end Cert.KernelIdeal.Val

end
-- ==== Proof.Final0.lean ====
/-
  The message kernel's output array after its 80 grid points: every entry is the message row function of the
  corresponding row of the three edge arrays (point t stores rows 8000 t .. 8000 t + 7999, all 128 columns, and the
  80 blocks tile the 640000 rows), and of the three weight arrays, which every point reads whole.
-/
import proofs.«427158_j69784628625694_1_alg».proof.Proof.Gen.KernelIdeal.Frame
import proofs.«427158_j69784628625694_1_alg».proof.Proof.Pay0
import Idealize.ShloMosaic.Lib.Pipeline.Value

noncomputable section

open scoped BigOperators

namespace Cert.KernelIdeal.Val

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The origin of a rank-2 rectangle, as a constant function. -/
theorem origin2 : (![0, 0] : Fin 2 → Nat) = fun _ => 0 := funext fun a => by fin_cases a <;> rfl

/-! ## The six arrays the region reads, each at its literal type -/

/-- The gathered destination-node rows, one per edge. -/
abbrev dstRows (c : Dev nD) : S640000x128.Idx → EReal := V c main_v0
/-- The gathered source-node rows, one per edge. -/
abbrev srcRows (c : Dev nD) : S640000x128.Idx → EReal := V c main_v1
/-- The edges' own rows. -/
abbrev edgeRows (c : Dev nD) : S640000x128.Idx → EReal := V c main_arg1
/-- The weight block the destination rows meet. -/
abbrev wDst (c : Dev nD) : S128x128.Idx → EReal := V c main_v3
/-- The weight block the source rows meet. -/
abbrev wSrc (c : Dev nD) : S128x128.Idx → EReal := V c main_v5
/-- The weight block the edge rows meet. -/
abbrev wEdge (c : Dev nD) : S128x128.Idx → EReal := V c main_v7

/-- The whole message array: entry (e, d) is the message row function of row e of the three edge arrays. -/
def msgArr (c : Dev nD) : S640000x128.Idx → EReal := fun i =>
  Cert.Spec.msgRow (fun k => dstRows V c (ix2 (i 0) k)) (fun k => srcRows V c (ix2 (i 0) k))
    (fun k => edgeRows V c (ix2 (i 0) k)) (fun k d' => wDst V c (ix2 k d')) (fun k d' => wSrc V c (ix2 k d'))
    (fun k d' => wEdge V c (ix2 k d')) (i 1)

/-! ## The index maps, decided over the 80 points -/

/-- The four row-blocked windows sit at block (t, 0); the three weight windows at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each block entry is an array entry -/

/-- Row r of point t's block of the destination rows is row 8000 t + r of the array. -/
theorem dstBlock_apply (c : Dev nD) (t : Fin cfg0.N) (r : Fin 8000) (k : Fin 128) (e : Fin 640000)
    (he : e.val = t.val * 8000 + r.val) :
    (iblk0 V c 0 t : Vec Ideal S8000x128 .f32) (ix2 r k) = dstRows V c (ix2 e k) := by
  obtain ⟨e0, e1, -⟩ := blockIndex t
  unfold iblk0
  rw [View.read_apply]
  show V c main_v0 (((cfg0.win 0).blk t).view.emb (ix2 r k)) = V c main_v0 (ix2 e k)
  congr 1
  funext a
  apply Fin.ext
  match a with
  | ⟨0, _⟩ => show win0_0.index t (0 : Fin 2) * 8000 + 1 * r.val = e.val; omega
  | ⟨1, _⟩ => show win0_0.index t (1 : Fin 2) * 128 + 1 * k.val = k.val; omega

/-- Row r of point t's block of the source rows is row 8000 t + r of the array. -/
theorem srcBlock_apply (c : Dev nD) (t : Fin cfg0.N) (r : Fin 8000) (k : Fin 128) (e : Fin 640000)
    (he : e.val = t.val * 8000 + r.val) :
    (iblk0 V c 1 t : Vec Ideal S8000x128 .f32) (ix2 r k) = srcRows V c (ix2 e k) := by
  obtain ⟨-, -, e0, e1, -⟩ := blockIndex t
  unfold iblk0
  rw [View.read_apply]
  show V c main_v1 (((cfg0.win 1).blk t).view.emb (ix2 r k)) = V c main_v1 (ix2 e k)
  congr 1
  funext a
  apply Fin.ext
  match a with
  | ⟨0, _⟩ => show win0_1.index t (0 : Fin 2) * 8000 + 1 * r.val = e.val; omega
  | ⟨1, _⟩ => show win0_1.index t (1 : Fin 2) * 128 + 1 * k.val = k.val; omega

/-- Row r of point t's block of the edge rows is row 8000 t + r of the array. -/
theorem edgeBlock_apply (c : Dev nD) (t : Fin cfg0.N) (r : Fin 8000) (k : Fin 128) (e : Fin 640000)
    (he : e.val = t.val * 8000 + r.val) :
    (iblk0 V c 2 t : Vec Ideal S8000x128 .f32) (ix2 r k) = edgeRows V c (ix2 e k) := by
  obtain ⟨-, -, -, -, e0, e1, -⟩ := blockIndex t
  unfold iblk0
  rw [View.read_apply]
  show V c main_arg1 (((cfg0.win 2).blk t).view.emb (ix2 r k)) = V c main_arg1 (ix2 e k)
  congr 1
  funext a
  apply Fin.ext
  match a with
  | ⟨0, _⟩ => show win0_2.index t (0 : Fin 2) * 8000 + 1 * r.val = e.val; omega
  | ⟨1, _⟩ => show win0_2.index t (1 : Fin 2) * 128 + 1 * k.val = k.val; omega

/-- Every point's block of the first weight array is the array. -/
theorem wDstBlock_apply (c : Dev nD) (t : Fin cfg0.N) (k d' : Fin 128) :
    (iblk0 V c 3 t : Vec Ideal S128x128 .f32) (ix2 k d') = wDst V c (ix2 k d') := by
  obtain ⟨-, -, -, -, -, -, e0, e1, -⟩ := blockIndex t
  unfold iblk0
  rw [View.read_apply]
  show V c main_v3 (((cfg0.win 3).blk t).view.emb (ix2 k d')) = V c main_v3 (ix2 k d')
  congr 1
  funext a
  apply Fin.ext
  match a with
  | ⟨0, _⟩ => show win0_3.index t (0 : Fin 2) * 128 + 1 * k.val = k.val; omega
  | ⟨1, _⟩ => show win0_3.index t (1 : Fin 2) * 128 + 1 * d'.val = d'.val; omega

/-- Every point's block of the second weight array is the array. -/
theorem wSrcBlock_apply (c : Dev nD) (t : Fin cfg0.N) (k d' : Fin 128) :
    (iblk0 V c 4 t : Vec Ideal S128x128 .f32) (ix2 k d') = wSrc V c (ix2 k d') := by
  obtain ⟨-, -, -, -, -, -, -, -, e0, e1, -⟩ := blockIndex t
  unfold iblk0
  rw [View.read_apply]
  show V c main_v5 (((cfg0.win 4).blk t).view.emb (ix2 k d')) = V c main_v5 (ix2 k d')
  congr 1
  funext a
  apply Fin.ext
  match a with
  | ⟨0, _⟩ => show win0_4.index t (0 : Fin 2) * 128 + 1 * k.val = k.val; omega
  | ⟨1, _⟩ => show win0_4.index t (1 : Fin 2) * 128 + 1 * d'.val = d'.val; omega

/-- Every point's block of the third weight array is the array. -/
theorem wEdgeBlock_apply (c : Dev nD) (t : Fin cfg0.N) (k d' : Fin 128) :
    (iblk0 V c 5 t : Vec Ideal S128x128 .f32) (ix2 k d') = wEdge V c (ix2 k d') := by
  obtain ⟨-, -, -, -, -, -, -, -, -, -, e0, e1, -⟩ := blockIndex t
  unfold iblk0
  rw [View.read_apply]
  show V c main_v7 (((cfg0.win 5).blk t).view.emb (ix2 k d')) = V c main_v7 (ix2 k d')
  congr 1
  funext a
  apply Fin.ext
  match a with
  | ⟨0, _⟩ => show win0_5.index t (0 : Fin 2) * 128 + 1 * k.val = k.val; omega
  | ⟨1, _⟩ => show win0_5.index t (1 : Fin 2) * 128 + 1 * d'.val = d'.val; omega

/-- Entry (r, d) of point t's block of the output sits at entry (8000 t + r, d) of the array. -/
theorem outBlock_emb (t : Fin cfg0.N) (r : Fin 8000) (d : Fin 128) (e : Fin 640000)
    (he : e.val = t.val * 8000 + r.val) :
    (((cfg0.win 6).blk t).view.emb (ix2 r d) : S640000x128.Idx) = ix2 e d := by
  obtain ⟨-, -, -, -, -, -, -, -, -, -, -, -, e0, e1⟩ := blockIndex t
  funext a
  apply Fin.ext
  match a with
  | ⟨0, _⟩ => show win0_6.index t (0 : Fin 2) * 8000 + 1 * r.val = e.val; omega
  | ⟨1, _⟩ => show win0_6.index t (1 : Fin 2) * 128 + 1 * d.val = d.val; omega

/-! ## What a point writes back -/

/-- Point t writes back block t of the message array. -/
theorem flushed_msg (c : Dev nD) (t : Fin cfg0.N) :
    (dat0 (F := Ideal) V c).flushed 6 t = ((cfg0.win 6).blk t).view.read (Elt Ideal) (msgArr V c) := by
  show (cfg0.win 6).cut (grid0.coords t) ((dat0 (F := Ideal) V c).after 6 t) = _
  rw [after0_6]
  unfold out0_6
  rw [View.canon_unit_zero origin2]
  simp only [View.ld_unit_zero (S := S8000x128) origin2, View.ld_unit_zero (S := S128x128) origin2]
  funext j
  obtain ⟨r, d, rfl⟩ : ∃ (r : Fin 8000) (d : Fin 128), j = ix2 r d := ⟨j 0, j 1, eq_ix2 j⟩
  have hN : cfg0.N = 80 := N_0
  have ht : t.val < 80 := hN ▸ t.isLt
  have hr : r.val < 8000 := r.isLt
  obtain ⟨e, he⟩ : ∃ e : Fin 640000, e.val = t.val * 8000 + r.val := ⟨⟨t.val * 8000 + r.val, by omega⟩, rfl⟩
  refine (pay0_apply (iblk0 V c 0 t) (iblk0 V c 1 t) (iblk0 V c 2 t) (iblk0 V c 3 t) (iblk0 V c 4 t) (iblk0 V c 5 t) r d).trans ?_
  show _ = msgArr V c (((cfg0.win 6).blk t).view.emb (ix2 r d))
  rw [outBlock_emb t r d e he]
  show Cert.Spec.msgRow _ _ _ _ _ _ d = Cert.Spec.msgRow _ _ _ _ _ _ d
  have h0 : (fun k => (iblk0 V c 0 t : Vec Ideal S8000x128 .f32) (ix2 r k)) = fun k => dstRows V c (ix2 e k) :=
    funext fun k => dstBlock_apply V c t r k e he
  have h1 : (fun k => (iblk0 V c 1 t : Vec Ideal S8000x128 .f32) (ix2 r k)) = fun k => srcRows V c (ix2 e k) :=
    funext fun k => srcBlock_apply V c t r k e he
  have h2 : (fun k => (iblk0 V c 2 t : Vec Ideal S8000x128 .f32) (ix2 r k)) = fun k => edgeRows V c (ix2 e k) :=
    funext fun k => edgeBlock_apply V c t r k e he
  have h3 : (fun k d' => (iblk0 V c 3 t : Vec Ideal S128x128 .f32) (ix2 k d')) = fun k d' => wDst V c (ix2 k d') :=
    funext fun k => funext fun d' => wDstBlock_apply V c t k d'
  have h4 : (fun k d' => (iblk0 V c 4 t : Vec Ideal S128x128 .f32) (ix2 k d')) = fun k d' => wSrc V c (ix2 k d') :=
    funext fun k => funext fun d' => wSrcBlock_apply V c t k d'
  have h5 : (fun k d' => (iblk0 V c 5 t : Vec Ideal S128x128 .f32) (ix2 k d')) = fun k d' => wEdge V c (ix2 k d') :=
    funext fun k => funext fun d' => wEdgeBlock_apply V c t k d'
  rw [h0, h1, h2, h3, h4, h5]

/-! ## The blocks tile the array -/

/-- An index of the array is in point t's block iff each coordinate is in the block's range on its axis. -/
theorem mem_outBlock (t : Fin cfg0.N) (i : S640000x128.Idx) :
    i ∈ ((cfg0.win 6).blk t).view.set ↔ ∀ a : Fin 2, win0_6.index t a * S8000x128.size a ≤ (i a).val ∧ (i a).val < win0_6.index t a * S8000x128.size a + S8000x128.size a := by
  show i ∈ ((View.whole main_v8).slice (win0_6.rect t)).set ↔ _
  rw [View.set_slice_whole, Rect.mem_set_unit]
  exact Iff.rfl

/-- Row e of the array lies in the block of point e / 8000, which writes back. -/
theorem rows_covered (i : S640000x128.Idx) :
    ∃ t : Fin cfg0.N, (cfg0.win 6).flush t = true ∧ i ∈ ((cfg0.win 6).blk t).view.set := by
  have hN : cfg0.N = 80 := N_0
  have hi0 : (i 0).val < 640000 := (i 0).isLt
  have hi1 : (i 1).val < 128 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, -, -, e0, e1⟩ := blockIndex t
  refine ⟨t, flush0_6 t, ?_⟩
  rw [mem_outBlock]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 128 ≤ (i 1).val ∧ (i 1).val < win0_6.index t (1 : Fin 2) * 128 + 128; omega

/-! ## The array after the region -/

/-- After the 80 points the output array is the message array. -/
theorem arr_msg (c : Dev nD) : (dat0 (F := Ideal) V c).arrAt 6 cfg0.N = msgArr V c :=
  (dat0 (F := Ideal) V c).arrAt_eq_of_cover 6 (msgArr V c) (fun t _ => flushed_msg V c t) rows_covered

/-- The message array after region 0, entry (e, d), for any contents V the region is entered with. -/
theorem final0 (c : Dev nD) (e : Fin 640000) (d : Fin 128) :
    ((dat0 (F := Ideal) V c).arrAt 6 cfg0.N : S640000x128.Idx → EReal) (ix2 e d)
      = Cert.Spec.msgRow (fun k => (V c main_v0 : S640000x128.Idx → EReal) (ix2 e k))
          (fun k => (V c main_v1 : S640000x128.Idx → EReal) (ix2 e k))
          (fun k => (V c main_arg1 : S640000x128.Idx → EReal) (ix2 e k))
          (fun k d' => (V c main_v3 : S128x128.Idx → EReal) (ix2 k d'))
          (fun k d' => (V c main_v5 : S128x128.Idx → EReal) (ix2 k d'))
          (fun k d' => (V c main_v7 : S128x128.Idx → EReal) (ix2 k d')) d := by
  rw [arr_msg V c]
  rfl

end Cert.KernelIdeal.Val

end
-- ==== Proof.Pay1.lean ====
/-
  The update kernel's stored value at one entry of its block.
-/
import proofs.«427158_j69784628625694_1_alg».proof.Proof.Gen.KernelIdeal.Skeleton
import proofs.«427158_j69784628625694_1_alg».proof.Proof.Spec
import proofs.«427158_j69784628625694_1_alg».proof.Proof.LibKeepdims

noncomputable section

open scoped BigOperators

namespace Cert.KernelIdeal.Val

open Cert.KernelIdeal Cert.KernelIdeal.Gen Idealize.ShloMosaic Idealize.ShloMosaic.ValueIdx

/-- The scaled linear image as the kernel forms it: the product of the gathered block with the weight block, into the
    zero accumulator, times the norm-factor column broadcast along rows. -/
private def linV (x0 : FVec Ideal S10000x128 .f32) (x1 : FVec Ideal S128x128 .f32) (x2 : FVec Ideal S10000x1 .f32) :
    FVec Ideal S10000x128 .f32 :=
  mulf (matmul dot_S10000x128_S128x128_S10000x128_1_0_0_1_n_n none
          (truncf .bf16 (shapeCast S10000x128 x0 shapeCasts_S10000x128_S10000x128) bitsLt_bf16_f32)
          (truncf .bf16 (shapeCast S128x128 x1 shapeCasts_S128x128_S128x128) bitsLt_bf16_f32)
          (constant S10000x128 .f32 0x00000000#32))
       (broadcastTo S10000x128 x2 broadcasts_S10000x1_S10000x128)

/-- The row means as a column: the lane sum of each row, kept as a unit axis, divided by the word of 128. -/
private def meanV (L : FVec Ideal S10000x128 .f32) : FVec Ideal S10000x1 .f32 :=
  divf (shapeCast S10000x1 (multiReduction .add [1] S10000 L 0x00000000#32 reduces_S10000x128_S10000 (.inl rfl) rfl)
          shapeCasts_S10000_S10000x1)
       (broadcast S10000x1 (Scalar.ofBits .f32 0x43000000#32))

/-- The block minus its row means. -/
private def cenV (L : FVec Ideal S10000x128 .f32) : FVec Ideal S10000x128 .f32 :=
  subf L (broadcastTo S10000x128 (meanV L) broadcasts_S10000x1_S10000x128)

/-- The stored block, over the scaled linear image L: the centred block times the reciprocal root of the row means of
    its squares plus the small constant, times the gain row, plus the bias row, rectified. -/
private def outV (L : FVec Ideal S10000x128 .f32) (x3 x4 : FVec Ideal S1x128 .f32) : FVec Ideal S10000x128 .f32 :=
  maximumf
    (addf
      (mulf
        (mulf (cenV L)
          (broadcastTo S10000x128
            (rsqrt (addf (meanV (mulf (cenV L) (cenV L))) (broadcast S10000x1 (Scalar.ofBits .f32 0x3727C5AC#32))))
            broadcasts_S10000x1_S10000x128))
        (broadcastTo S10000x128 (shapeCast S1x128 x3 shapeCasts_S1x128_S1x128) broadcasts_S1x128_S10000x128))
      (broadcastTo S10000x128 (shapeCast S1x128 x4 shapeCasts_S1x128_S1x128) broadcasts_S1x128_S10000x128))
    (broadcast S10000x128 (Scalar.ofBits .f32 0x00000000#32))

/-- The payload is the stored block over the scaled linear image: the same term, its shared parts named. -/
private theorem pay1_eq (x0 : Vec Ideal S10000x128 .f32) (x1 : Vec Ideal S128x128 .f32) (x2 : Vec Ideal S10000x1 .f32)
    (x3 x4 : Vec Ideal S1x128 .f32) :
    k1_pay1 (F := Ideal) x0 x1 x2 x3 x4 = outV (linV x0 x1 x2) x3 x4 := rfl

/-- Entry (r, d') of the scaled linear image: the inner product of row r with column d', times row r's norm factor. -/
private theorem linV_apply (x0 : FVec Ideal S10000x128 .f32) (x1 : FVec Ideal S128x128 .f32) (x2 : FVec Ideal S10000x1 .f32)
    (r : Fin 10000) (d' : Fin 128) :
    linV x0 x1 x2 (ix2 r d')
      = Cert.Spec.linRow (fun k => x0 (ix2 r k)) (fun k d' => x1 (ix2 k d')) (x2 (ix2 r (0 : Fin 1))) d' := by
  unfold linV
  rw [mulf_apply, Keepdims.broadcastTo_a1_ab_apply, shapeCast_self, shapeCast_self]
  refine congrArg (· * x2 (ix2 r (0 : Fin 1))) ?_
  exact Keepdims.matmul_zero_apply dot_S10000x128_S128x128_S10000x128_1_0_0_1_n_n rfl rfl
    (fun _ _ => rfl) (fun _ _ => rfl) (fun _ _ => rfl) (fun _ _ => rfl) none
    (truncf .bf16 x0 bitsLt_bf16_f32) (truncf .bf16 x1 bitsLt_bf16_f32) r d'

/-- Entry (r, 0) of the mean column: row r's sum divided by the word of 128. -/
private theorem meanV_apply (L : FVec Ideal S10000x128 .f32) (r : Fin 10000) :
    meanV L (ix2 r (0 : Fin 1)) = Ideal.div (∑ k : Fin 128, L (ix2 r k)) Cert.Spec.c128 := by
  unfold meanV
  rw [divf_apply, broadcast_apply, Keepdims.shapeCast_a_a1_apply]
  exact congrArg (fun z => Ideal.div z Cert.Spec.c128)
    (Keepdims.multiReduction_add_rows L 0x00000000#32 reduces_S10000x128_S10000 (.inl rfl) rfl r)

/-- Entry (r, d') of the centred block. -/
private theorem cenV_apply (L : FVec Ideal S10000x128 .f32) (r : Fin 10000) (d' : Fin 128) :
    cenV L (ix2 r d') = L (ix2 r d') - Ideal.div (∑ k : Fin 128, L (ix2 r k)) Cert.Spec.c128 := by
  unfold cenV
  rw [subf_apply, Keepdims.broadcastTo_a1_ab_apply, meanV_apply]

/-- Entry (r, d) of the block the update kernel stores: the normalised-row function of row r of the gathered block,
    the weight block, the row's norm factor, the gain row and the bias row. -/
theorem pay1_apply (x0 : Vec Ideal S10000x128 .f32) (x1 : Vec Ideal S128x128 .f32) (x2 : Vec Ideal S10000x1 .f32)
    (x3 x4 : Vec Ideal S1x128 .f32) (r : Fin 10000) (d : Fin 128) :
    k1_pay1 (F := Ideal) x0 x1 x2 x3 x4 (ix2 r d)
      = Cert.Spec.updRow (fun k => x0 (ix2 r k)) (fun k d' => x1 (ix2 k d')) (x2 (ix2 r (0 : Fin 1)))
          (fun d' => x3 (ix2 (0 : Fin 1) d')) (fun d' => x4 (ix2 (0 : Fin 1) d')) d := by
  rw [pay1_eq]
  have hL : ∀ d' : Fin 128, linV x0 x1 x2 (ix2 r d')
      = Cert.Spec.linRow (fun k => x0 (ix2 r k)) (fun k d' => x1 (ix2 k d')) (x2 (ix2 r (0 : Fin 1))) d' :=
    fun d' => linV_apply x0 x1 x2 r d'
  generalize linV x0 x1 x2 = L at hL ⊢
  -- the centred block's row r is the centred row
  have hC : ∀ d' : Fin 128, cenV L (ix2 r d')
      = Cert.Spec.cenRow (fun k => x0 (ix2 r k)) (fun k d' => x1 (ix2 k d')) (x2 (ix2 r (0 : Fin 1))) d' := by
    intro d'
    rw [cenV_apply]
    simp only [hL]
    rfl
  -- the mean of the centred block's squares over row r is the variance
  have hV : meanV (mulf (cenV L) (cenV L)) (ix2 r (0 : Fin 1))
      = Cert.Spec.varRow (fun k => x0 (ix2 r k)) (fun k d' => x1 (ix2 k d')) (x2 (ix2 r (0 : Fin 1))) := by
    rw [meanV_apply]
    simp only [mulf_apply, hC]
    rfl
  unfold outV
  rw [maximumf_apply, addf_apply, mulf_apply, mulf_apply, broadcast_apply, ValueIdx.broadcastTo_1b_ab_apply,
    ValueIdx.broadcastTo_1b_ab_apply, shapeCast_self, shapeCast_self, Keepdims.broadcastTo_a1_ab_apply]
  show max (cenV L (ix2 r d)
        * Ideal.rsqrt (meanV (mulf (cenV L) (cenV L)) (ix2 r (0 : Fin 1)) + Cert.Spec.ceps)
        * x3 (ix2 (0 : Fin 1) d) + x4 (ix2 (0 : Fin 1) d)) (Ideal.ofBits .f32 0x00000000#32) = _
  rw [hV, hC, Ideal.ofBits_zero_f32]
  rfl

end Cert.KernelIdeal.Val

end
-- ==== Proof.Final1.lean ====
/-
  The update kernel's output array after its 64 grid points: every entry is the normalised-row function of the
  corresponding row of the gathered array and of the norm-factor column (point t stores rows 10000 t .. 10000 t + 9999,
  all 128 columns, and the 64 blocks tile the 640000 rows), and of the weight array, the gain row and the bias row,
  which every point reads whole.
-/
import proofs.«427158_j69784628625694_1_alg».proof.Proof.Gen.KernelIdeal.Frame
import proofs.«427158_j69784628625694_1_alg».proof.Proof.Pay1
import Idealize.ShloMosaic.Lib.Pipeline.Value

noncomputable section

open scoped BigOperators

namespace Cert.KernelIdeal.Val

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The zero offsets of a whole-block access, as a constant function. -/
theorem origin_zero : (![0, 0] : Fin 2 → Nat) = fun _ => 0 := funext fun a => by fin_cases a <;> rfl

/-- The gathered array, 640000 rows of 128 features. -/
abbrev gathered (c : Dev nD) : S640000x128.Idx → EReal := V c main_v12
/-- The weight array. -/
abbrev weight (c : Dev nD) : S128x128.Idx → EReal := V c main_v13
/-- The norm-factor column. -/
abbrev normFactor (c : Dev nD) : S640000x1.Idx → EReal := V c main_arg2
/-- The gain row. -/
abbrev gain (c : Dev nD) : S1x128.Idx → EReal := V c main_v14
/-- The bias row. -/
abbrev bias (c : Dev nD) : S1x128.Idx → EReal := V c main_v15

/-- The whole result array as one function of the five input arrays: entry (e, d) is the normalised-row function of
    row e of the gathered array, the weight array, the norm factor of row e, the gain row and the bias row. -/
def updArray (c : Dev nD) : S640000x128.Idx → EReal := fun i =>
  Cert.Spec.updRow (fun k => gathered V c (ix2 (i 0) k)) (fun k d' => weight V c (ix2 k d'))
    (normFactor V c (ix2 (i 0) (0 : Fin 1))) (fun d' => gain V c (ix2 (0 : Fin 1) d'))
    (fun d' => bias V c (ix2 (0 : Fin 1) d')) (i 1)

/-- The index maps over the grid: the row-blocked windows sit at block (t, 0), the whole windows at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (r, k) of the gathered block at point t is entry (10000 t + r, k) of the gathered array. -/
theorem gathered_block (c : Dev nD) (t : Fin cfg1.N) (r : Fin 10000) (k : Fin 128) (e : Fin 640000)
    (he : e.val = t.val * 10000 + r.val) :
    (iblk1 V c 0 t : Vec Ideal S10000x128 .f32) (ix2 r k) = gathered V c (ix2 e k) := by
  obtain ⟨h0, h1, -⟩ := block_index t
  show V c main_v12 (((cfg1.win 0).blk t).view.emb (ix2 r k)) = V c main_v12 (ix2 e k)
  refine congrArg _ ?_
  funext a; apply Fin.ext
  match a with
  | ⟨0, _⟩ => show win1_0.index t (0 : Fin 2) * 10000 + 1 * r.val = e.val; rw [h0, he]; omega
  | ⟨1, _⟩ => show win1_0.index t (1 : Fin 2) * 128 + 1 * k.val = k.val; rw [h1]; omega

/-- The weight block at any point is the weight array. -/
theorem weight_block (c : Dev nD) (t : Fin cfg1.N) (k d' : Fin 128) :
    (iblk1 V c 1 t : Vec Ideal S128x128 .f32) (ix2 k d') = weight V c (ix2 k d') := by
  obtain ⟨-, -, h0, h1, -⟩ := block_index t
  show V c main_v13 (((cfg1.win 1).blk t).view.emb (ix2 k d')) = V c main_v13 (ix2 k d')
  refine congrArg _ ?_
  funext a; apply Fin.ext
  match a with
  | ⟨0, _⟩ => show win1_1.index t (0 : Fin 2) * 128 + 1 * k.val = k.val; rw [h0]; omega
  | ⟨1, _⟩ => show win1_1.index t (1 : Fin 2) * 128 + 1 * d'.val = d'.val; rw [h1]; omega

/-- Entry (r, 0) of the norm-factor block at point t is entry (10000 t + r, 0) of the norm-factor column. -/
theorem normFactor_block (c : Dev nD) (t : Fin cfg1.N) (r : Fin 10000) (e : Fin 640000)
    (he : e.val = t.val * 10000 + r.val) :
    (iblk1 V c 2 t : Vec Ideal S10000x1 .f32) (ix2 r (0 : Fin 1)) = normFactor V c (ix2 e (0 : Fin 1)) := by
  obtain ⟨-, -, -, -, h0, h1, -⟩ := block_index t
  show V c main_arg2 (((cfg1.win 2).blk t).view.emb (ix2 r (0 : Fin 1))) = V c main_arg2 (ix2 e (0 : Fin 1))
  refine congrArg _ ?_
  funext a; apply Fin.ext
  match a with
  | ⟨0, _⟩ => show win1_2.index t (0 : Fin 2) * 10000 + 1 * r.val = e.val; rw [h0, he]; omega
  | ⟨1, _⟩ => show win1_2.index t (1 : Fin 2) * 1 + 1 * (0 : Fin 1).val = (0 : Fin 1).val; rw [h1]; rfl

/-- The gain block at any point is the gain row. -/
theorem gain_block (c : Dev nD) (t : Fin cfg1.N) (d' : Fin 128) :
    (iblk1 V c 3 t : Vec Ideal S1x128 .f32) (ix2 (0 : Fin 1) d') = gain V c (ix2 (0 : Fin 1) d') := by
  obtain ⟨-, -, -, -, -, -, h0, h1, -⟩ := block_index t
  show V c main_v14 (((cfg1.win 3).blk t).view.emb (ix2 (0 : Fin 1) d')) = V c main_v14 (ix2 (0 : Fin 1) d')
  refine congrArg _ ?_
  funext a; apply Fin.ext
  match a with
  | ⟨0, _⟩ => show win1_3.index t (0 : Fin 2) * 1 + 1 * (0 : Fin 1).val = (0 : Fin 1).val; rw [h0]; rfl
  | ⟨1, _⟩ => show win1_3.index t (1 : Fin 2) * 128 + 1 * d'.val = d'.val; rw [h1]; omega

/-- The bias block at any point is the bias row. -/
theorem bias_block (c : Dev nD) (t : Fin cfg1.N) (d' : Fin 128) :
    (iblk1 V c 4 t : Vec Ideal S1x128 .f32) (ix2 (0 : Fin 1) d') = bias V c (ix2 (0 : Fin 1) d') := by
  obtain ⟨-, -, -, -, -, -, -, -, h0, h1, -⟩ := block_index t
  show V c main_v15 (((cfg1.win 4).blk t).view.emb (ix2 (0 : Fin 1) d')) = V c main_v15 (ix2 (0 : Fin 1) d')
  refine congrArg _ ?_
  funext a; apply Fin.ext
  match a with
  | ⟨0, _⟩ => show win1_4.index t (0 : Fin 2) * 1 + 1 * (0 : Fin 1).val = (0 : Fin 1).val; rw [h0]; rfl
  | ⟨1, _⟩ => show win1_4.index t (1 : Fin 2) * 128 + 1 * d'.val = d'.val; rw [h1]; omega

/-- A grid point's number is below 64. -/
theorem point_lt (t : Fin cfg1.N) : t.val < 64 :=
  t.isLt.trans_eq N_1

/-- What point t writes back is block t of the whole result array. -/
theorem flushed_block (c : Dev nD) (t : Fin cfg1.N) :
    (dat1 (F := Ideal) V c).flushed 5 t = ((cfg1.win 5).blk t).view.read (Elt Ideal) (updArray V c) := by
  show (cfg1.win 5).cut (grid1.coords t) ((dat1 (F := Ideal) V c).after 5 t) = _
  rw [after1_5]
  unfold out1_5
  rw [View.canon_unit_zero origin_zero]
  simp only [View.ld_unit_zero (S := S10000x128) origin_zero, View.ld_unit_zero (S := S128x128) origin_zero,
    View.ld_unit_zero (S := S10000x1) origin_zero, View.ld_unit_zero (S := S1x128) origin_zero]
  obtain ⟨-, -, -, -, -, -, -, -, -, -, h0, h1⟩ := block_index t
  have ht := point_lt t
  funext j
  obtain ⟨r, d, rfl⟩ : ∃ (r : Fin 10000) (d : Fin 128), j = ix2 r d := ⟨j 0, j 1, eq_ix2 j⟩
  obtain ⟨e, he⟩ : ∃ e : Fin 640000, e.val = t.val * 10000 + r.val :=
    ⟨⟨t.val * 10000 + r.val, by have := r.isLt; omega⟩, rfl⟩
  have hemb : ((cfg1.win 5).blk t).view.emb (ix2 r d) = ix2 e d := by
    funext a; apply Fin.ext
    match a with
    | ⟨0, _⟩ => show win1_5.index t (0 : Fin 2) * 10000 + 1 * r.val = e.val; rw [h0, he]; omega
    | ⟨1, _⟩ => show win1_5.index t (1 : Fin 2) * 128 + 1 * d.val = d.val; rw [h1]; omega
  show k1_pay1 (F := Ideal) (iblk1 V c 0 t) (iblk1 V c 1 t) (iblk1 V c 2 t) (iblk1 V c 3 t) (iblk1 V c 4 t) (ix2 r d)
    = updArray V c (((cfg1.win 5).blk t).view.emb (ix2 r d))
  rw [hemb]
  refine (pay1_apply (iblk1 V c 0 t) (iblk1 V c 1 t) (iblk1 V c 2 t) (iblk1 V c 3 t) (iblk1 V c 4 t) r d).trans ?_
  have e0 : (fun k => (iblk1 V c 0 t : Vec Ideal S10000x128 .f32) (ix2 r k)) = fun k => gathered V c (ix2 e k) :=
    funext fun k => gathered_block V c t r k e he
  have e1 : (fun k d' => (iblk1 V c 1 t : Vec Ideal S128x128 .f32) (ix2 k d')) = fun k d' => weight V c (ix2 k d') :=
    funext fun k => funext fun d' => weight_block V c t k d'
  have e2 : (iblk1 V c 2 t : Vec Ideal S10000x1 .f32) (ix2 r (0 : Fin 1)) = normFactor V c (ix2 e (0 : Fin 1)) :=
    normFactor_block V c t r e he
  have e3 : (fun d' => (iblk1 V c 3 t : Vec Ideal S1x128 .f32) (ix2 (0 : Fin 1) d')) = fun d' => gain V c (ix2 (0 : Fin 1) d') :=
    funext fun d' => gain_block V c t d'
  have e4 : (fun d' => (iblk1 V c 4 t : Vec Ideal S1x128 .f32) (ix2 (0 : Fin 1) d')) = fun d' => bias V c (ix2 (0 : Fin 1) d') :=
    funext fun d' => bias_block V c t d'
  rw [e0, e1, e2, e3, e4]
  rfl

/-- An index of the result array is in point t's block iff each coordinate is in the block's range on its axis. -/
theorem mem_block (t : Fin cfg1.N) (i : S640000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v16).slice (win1_5.rect t)).set ↔ _
  rw [View.set_slice_whole, Rect.mem_set_unit]
  exact Iff.rfl

/-- The 64 blocks tile the array: row e lies in the block of point e / 10000. -/
theorem covered (i : S640000x128.Idx) :
    ∃ t : Fin cfg1.N, (cfg1.win 5).flush t = true ∧ i ∈ ((cfg1.win 5).blk t).view.set := by
  have hi0 : (i 0).val < 640000 := (i 0).isLt
  have hi1 : (i 1).val < 128 := (i 1).isLt
  obtain ⟨t, ht⟩ : ∃ t : Fin cfg1.N, t.val = (i 0).val / 10000 :=
    ⟨⟨(i 0).val / 10000, by rw [show cfg1.N = 64 from N_1]; omega⟩, rfl⟩
  obtain ⟨-, -, -, -, -, -, -, -, -, -, h0, h1⟩ := block_index t
  refine ⟨t, flush1_5 t, ?_⟩
  rw [mem_block]
  intro a
  match a with
  | ⟨0, _⟩ =>
    show win1_5.index t (0 : Fin 2) * 10000 ≤ (i 0).val ∧ (i 0).val < win1_5.index t (0 : Fin 2) * 10000 + 10000
    rw [h0, ht]; omega
  | ⟨1, _⟩ =>
    show win1_5.index t (1 : Fin 2) * 128 ≤ (i 1).val ∧ (i 1).val < win1_5.index t (1 : Fin 2) * 128 + 128
    rw [h1]; omega

/-- The result array after the 64 points is the whole-array function. -/
theorem final_array (c : Dev nD) : (dat1 (F := Ideal) V c).arrAt 5 cfg1.N = updArray V c :=
  (dat1 (F := Ideal) V c).arrAt_eq_of_cover 5 (updArray V c) (fun t _ => flushed_block V c t) covered

/-- The result array after region 1, entry (e, d), for any contents V the region is entered with. -/
theorem final1 (c : Dev nD) (e : Fin 640000) (d : Fin 128) :
    ((dat1 (F := Ideal) V c).arrAt 5 cfg1.N : S640000x128.Idx → EReal) (ix2 e d)
      = Cert.Spec.updRow (fun k => (V c main_v12 : S640000x128.Idx → EReal) (ix2 e k))
          (fun k d' => (V c main_v13 : S128x128.Idx → EReal) (ix2 k d'))
          ((V c main_arg2 : S640000x1.Idx → EReal) (ix2 e (0 : Fin 1)))
          (fun d' => (V c main_v14 : S1x128.Idx → EReal) (ix2 (0 : Fin 1) d'))
          (fun d' => (V c main_v15 : S1x128.Idx → EReal) (ix2 (0 : Fin 1) d')) d := by
  rw [final_array V c]
  rfl

end Cert.KernelIdeal.Val

end
-- ==== Proof.LibScatter.lean ====
/-
  The host's scatter read at one index.

  A scatter whose body adds in a commutative monoid leaves, at each operand index, the operand's element plus the sum of
  the updates that land there, whatever the order of the fold (general lemma, any dimension numbers). For the
  two families of dimension numbers of a histogram (operand [N], indices [K,1], updates [K]) and of a row
  scatter-add (operand [R,C], indices [K,1], updates [K,C]) the landing index is computed in closed form: update
  e lands in row "the e-th index read signed", and is dropped when that is outside the operand.
-/
import Mathlib.Data.BitVec
import Mathlib.Algebra.BigOperators.Fin
import Idealize.ShloMosaic.Lib.ValueIdxRank1

open scoped BigOperators

namespace Cert.LibScatter

open Idealize.ShloMosaic Idealize.ShloMosaic.ValueIdx

/-! ## Any scatter whose body adds in a commutative monoid -/

section General
variable {α : Type} [AddCommMonoid α] {s si u : Shape} {w : Nat}

/-- The scatter's fold over ANY list of update positions, read at operand index i: the start value there plus the
    sum, over the list, of the updates whose landing index is i. -/
theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

/-- A scatter with an adding body, read at operand index i: the operand's element plus the sum of all updates
    whose landing index is i. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

/-! ## Row scatter: operand [R,C], indices [K,1], updates [K,C] -/

section Row

/-- The dimension numbers of a row scatter (every update row added to the operand row its index names): the updates' axis 1 is the window, it goes to
    the operand's axis 1; the operand's axis 0 is indexed by the one component of each index vector. -/
abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

/-- On the operand's row axis the window starts at the update's row's index, read signed. -/
theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's column axis the window starts at 0. -/
theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

/-- The operand's axes that are not inserted: the column axis alone. -/
theorem rowDims_sKept : (rowDims R K C wf).sKept = [1] := rfl

/-- The row axis is inserted: no window coordinate. -/
theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

/-- The column axis carries the update's column. -/
theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

/-- WHERE AN UPDATE LANDS: update (e, c) lands at (row, c), row the e-th index read signed, when that row is in
    the operand; it is dropped otherwise. -/
theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

/-- The form sums use: update (e, c) lands at (i, c') exactly when the e-th index reads i and the columns agree. -/
theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

/-! ## Histogram: operand [N], indices [K,1], updates [K] -/

section Hist

/-- The dimension numbers of a histogram (every update added to the operand element its index names): the updates
    have no window axis; the operand's one axis is inserted and indexed by the one component of each index vector. -/
abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

/-- The window starts at the update's index, read signed. -/
theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no axis is kept, … -/
theorem histDims_sKept : (histDims N K wf).sKept = [] := rfl

/-- … so there is no window coordinate. -/
theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

/-- WHERE AN UPDATE LANDS: update e lands at the e-th index read signed, when that is in the operand; it is
    dropped otherwise. -/
theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

/-- The form sums use: update e lands at v exactly when the e-th index reads v. -/
theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

/-! ## The two scatters read at an index, as sums over the update rows -/

section Sums

/-- THE ROW SCATTER-ADD AT (i, c), exact arithmetic: the operand's element plus the sum, over the update rows whose
    index reads i, of the row's element in column c. -/
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

/-- A sum of 32-bit words, each present or absent, is the word of the sum of their values. -/
theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

/-- THE HISTOGRAM AT v, 32-bit words added with wrap-around: the operand's element plus the word of the sum, over the
    updates whose index reads v, of the update's value. -/
theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

end Cert.LibScatter
-- ==== Proof.Scat.lean ====
/-
  A row scatter-add depends only on the update rows that land: an update row whose index lies outside 0 .. 39999 is
  dropped, so two update arrays that agree on every row with an index in range give the same table.
-/
import proofs.«427158_j69784628625694_1_alg».proof.Proof.Gen.KernelIdeal
import proofs.«427158_j69784628625694_1_alg».proof.Proof.LibScatter
import Idealize.ShloMosaic.Lib.ValueIdx
import Idealize.ShloMosaic.PureOps.Ideal

noncomputable section

open scoped BigOperators

namespace Cert.KernelIdeal.Val

open Cert.KernelIdeal Cert.KernelIdeal.Facts₀ Cert.KernelIdeal.Facts Idealize.ShloMosaic Idealize.ShloMosaic.ValueIdx

/-- The printed dimension numbers of the scatter are those of a row scatter of 640000 update rows of 128 columns
    into a table of 40000 rows. -/
private theorem dims_eq_rowDims :
    scatter_S40000x128_S640000x1_S640000x128_1_0_0_1
      = Cert.LibScatter.rowDims 40000 640000 128 scatter_S40000x128_S640000x1_S640000x128_1_0_0_1_wf := rfl

/-- The scattered table is the same for two update arrays that agree on the rows whose index is in range. -/
theorem scatterAdd_congr (z : FVec Ideal S40000x128 .f32) (idx : IVec S640000x1 32) (u u' : FVec Ideal S640000x128 .f32)
    (h : ∀ (e : Fin 640000) (k : Fin 128), 0 ≤ (idx (ix2 e (0 : Fin 1))).toInt → (idx (ix2 e (0 : Fin 1))).toInt < 40000 →
      u (ix2 e k) = u' (ix2 e k)) :
    Host.scatterAdd scatter_S40000x128_S640000x1_S640000x128_1_0_0_1 z idx u
      = Host.scatterAdd scatter_S40000x128_S640000x1_S640000x128_1_0_0_1 z idx u' := by
  rw [dims_eq_rowDims]
  funext i
  obtain ⟨n, c, rfl⟩ : ∃ (n : Fin 40000) (c : Fin 128), i = ix2 n c := ⟨i 0, i 1, eq_ix2 i⟩
  rw [Cert.LibScatter.rowDims_scatterAdd_apply, Cert.LibScatter.rowDims_scatterAdd_apply]
  refine congrArg (z (ix2 n c) + ·) (Finset.sum_congr rfl fun e _ => ?_)
  by_cases ht : (idx (ix2 e (0 : Fin 1))).toInt = (n.val : ℤ)
  · rw [if_pos ht, if_pos ht]
    have hn := n.isLt
    exact h e c (by omega) (by omega)
  · rw [if_neg ht, if_neg ht]

end Cert.KernelIdeal.Val

end
-- ==== Proof.Layout.lean ====
/-
  The layout operations the host applies around the two kernels, read at an index: a 128-column slice of the first
  weight matrix transposed; the second weight matrix transposed; a vector as a one-row matrix; an index vector as a
  column.
-/
import proofs.«427158_j69784628625694_1_alg».proof.Proof.Gen.KernelIdeal
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Facts₀ Cert.KernelIdeal.Facts Idealize.ShloMosaic Idealize.ShloMosaic.ValueIdx

variable {α : Type}

/-- Columns 0 .. 127 of the first weight matrix, transposed: entry (k, d') is the matrix at (d', k). -/
theorem w1_lo_apply (W : S128x384.Idx → α) (k d' : Fin 128) :
    transpose S128x128 [1, 0] (extractStridedSlice S128x128 ![0, 0] W slices_S128x384_S128x128_0_0) transposes_S128x128_S128x128_1_0 (ix2 k d')
      = W (ix2 d' (⟨k.val, by omega⟩ : Fin 384)) := by
  refine (transpose_ix2_apply (a := 128) (b := 128) _ transposes_S128x128_S128x128_1_0 k d').trans ?_
  exact slice2_axis1_apply 0 W slices_S128x384_S128x128_0_0 d' k _ (Nat.zero_add _).symm

/-- Columns 128 .. 255 of the first weight matrix, transposed: entry (k, d') is the matrix at (d', 128 + k). -/
theorem w1_mid_apply (W : S128x384.Idx → α) (k d' : Fin 128) :
    transpose S128x128 [1, 0] (extractStridedSlice S128x128 ![0, 128] W slices_S128x384_S128x128_0_128) transposes_S128x128_S128x128_1_0 (ix2 k d')
      = W (ix2 d' (⟨128 + k.val, by omega⟩ : Fin 384)) := by
  refine (transpose_ix2_apply (a := 128) (b := 128) _ transposes_S128x128_S128x128_1_0 k d').trans ?_
  exact slice2_axis1_apply 128 W slices_S128x384_S128x128_0_128 d' k _ rfl

/-- Columns 256 .. 383 of the first weight matrix, transposed: entry (k, d') is the matrix at (d', 256 + k). -/
theorem w1_hi_apply (W : S128x384.Idx → α) (k d' : Fin 128) :
    transpose S128x128 [1, 0] (extractStridedSlice S128x128 ![0, 256] W slices_S128x384_S128x128_0_256) transposes_S128x128_S128x128_1_0 (ix2 k d')
      = W (ix2 d' (⟨256 + k.val, by omega⟩ : Fin 384)) := by
  refine (transpose_ix2_apply (a := 128) (b := 128) _ transposes_S128x128_S128x128_1_0 k d').trans ?_
  exact slice2_axis1_apply 256 W slices_S128x384_S128x128_0_256 d' k _ rfl

/-- The second weight matrix transposed: entry (k, d') is the matrix at (d', k). -/
theorem w2_apply (W : S128x128.Idx → α) (k d' : Fin 128) :
    transpose S128x128 [1, 0] W transposes_S128x128_S128x128_1_0 (ix2 k d') = W (ix2 d' k) := by
  exact transpose_ix2_apply (a := 128) (b := 128) W transposes_S128x128_S128x128_1_0 k d'

/-- A vector as a one-row matrix: entry (0, d') is the vector's entry d'. -/
theorem row_apply (g : S128.Idx → α) (d' : Fin 128) :
    shapeCast S1x128 g shapeCasts_S128_S1x128 (ix2 (0 : Fin 1) d') = g (ix1 d') := by
  exact shapeCast_a_1a_apply g shapeCasts_S128_S1x128 0 d'

/-- An index vector as a column: entry (e, 0) is the vector's entry e. -/
theorem col_apply (idx : S640000.Idx → α) (e : Fin 640000) :
    broadcastInDim S640000x1 ![0] bcast_S640000_S640000x1_0 idx (ix2 e (0 : Fin 1)) = idx (ix1 e) := by
  exact broadcastInDim_apply _ bcast_S640000_S640000x1_0 idx (ix2 e (0 : Fin 1)) (ix1 e) (fun a => match a with
    | ⟨0, _⟩ => by show e.val = if (640000 : Nat) = 1 then 0 else e.val; rw [if_neg (by decide)])

end Cert.KernelIdeal.Val

end
-- ==== Proof.PreIdx.lean ====
/-
  What the precondition says of the source-index vector: its last two conjuncts are "every entry is at least 0" and
  "every entry is below 40000" (signed 32-bit compares, each reduced by "and" over all 640000 entries), so every entry,
  read as a signed integer, lies in 0 .. 39999.
-/
import proofs.«427158_j69784628625694_1_alg».proof.Defs
import proofs.«427158_j69784628625694_1_alg».proof.Proof.Gen.Pre_finite_inputs
import Idealize.ShloMosaic.Lib.ReduceAll
import Idealize.ShloMosaic.Lib.StableHlo.Predicate
import Idealize.ShloMosaic.Lib.ValueIdx

noncomputable section

open scoped BigOperators

namespace Cert.KernelIdeal.Val

open Idealize.ShloMosaic Idealize.ShloMosaic.ValueIdx Idealize.SL.Sem

/-- The precondition's last part, read at its one index: if it is 1, the two outermost conjuncts are, each an "and" over all
    640000 entries of a signed compare of the index vector with a splat constant; so each entry is at least 0 and
    below 40000. -/
private theorem part2_decode {F : FTy → Type} [FloatOps F] [Cert.Pre_finite_inputs.Facts]
    (a7 : FVec F Cert.Pre_finite_inputs.S128 .f32) (a8 : IVec Cert.Pre_finite_inputs.S640000 32)
    (v33 : IVec Cert.Pre_finite_inputs.S_ 1)
    (h : Cert.Pre_finite_inputs.fn_part2 (F := F) a7 a8 v33 ix0 = 1#1) (e : Fin 640000) :
    0 ≤ (a8 (ix1 e)).toInt ∧ (a8 (ix1 e)).toInt < 40000 := by
  haveI : Subsingleton Cert.Pre_finite_inputs.S_.Idx := ⟨fun a b => funext fun d => d.elim0⟩
  unfold Cert.Pre_finite_inputs.fn_part2 at h
  -- the result is (… and "all ≥ 0") and "all < 40000"
  obtain ⟨h42, h45⟩ := IntOp.andi_eq_one.1 h
  obtain ⟨-, h41⟩ := IntOp.andi_eq_one.1 h42
  -- an "and" over all entries that is 1 met a 1 at every entry
  have hge := Host.reduce_andi_all _ _ _ _ ix0 h41 (ix1 e)
  have hlt := Host.reduce_andi_all _ _ _ _ ix0 h45 (ix1 e)
  -- a signed compare that is 1 orders the signed readings
  have hge' := IntOp.cmpi_sge.1 hge
  have hlt' := IntOp.cmpi_slt.1 hlt
  -- a splat constant read at any index is the constant
  have hge'' : (0#32 : BitVec 32).toInt ≤ (a8 (ix1 e)).toInt := hge'
  have hlt'' : (a8 (ix1 e)).toInt < (40000#32 : BitVec 32).toInt := hlt'
  rw [show (0#32 : BitVec 32).toInt = 0 by decide] at hge''
  rw [show (40000#32 : BitVec 32).toInt = 40000 by decide] at hlt''
  exact ⟨hge'', hlt''⟩

/-- Under the precondition every source index lies in 0 .. 39999. -/
theorem src_in_range [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 640000) :
    0 ≤ ((m ((c.tc : Thread Cert.KernelIdeal.nD Cert.KernelIdeal.τ).loc Cert.KernelIdeal.main_arg8) : IVec Cert.KernelIdeal.S640000 32) (ix1 e)).toInt
      ∧ ((m ((c.tc : Thread Cert.KernelIdeal.nD Cert.KernelIdeal.τ).loc Cert.KernelIdeal.main_arg8) : IVec Cert.KernelIdeal.S640000 32) (ix1 e)).toInt < 40000 := by
  -- the precondition on device c, read at the one index of its scalar result; its chain of operations ends in the part
  -- decoded above (the earlier conjuncts stay folded in that part's incoming word)
  have h := congrFun (hpre c) ix0
  exact part2_decode _ _ _ h e

end Cert.KernelIdeal.Val

end
-- ==== Proof.RefOut.lean ====
/-
  The reference's result read at one entry: from the gathered node rows on, its operations are the normalised-row
  function of one row — the product with the second weight matrix contracts its second axis, so the weight enters
  transposed; the gain and the bias are the vectors' entries.
-/
import proofs.«427158_j69784628625694_1_alg».proof.Proof.Gen.ReferenceIdeal.Read
import proofs.«427158_j69784628625694_1_alg».proof.Proof.Spec
import Idealize.ShloMosaic.Lib.ValueIdx
import Idealize.ShloMosaic.Lib.ValueLayout

noncomputable section

open scoped BigOperators

namespace Cert.ReferenceIdeal.RefVal

open Cert.ReferenceIdeal Cert.ReferenceIdeal.Read Idealize.ShloMosaic Idealize.ShloMosaic.ValueIdx

/-! The index maps of the layout stages, at an index given by its coordinates. -/

private theorem lidx27 (e : Fin 640000) (d k : Fin 128) : lidx_main_v27 (ix2 e d) k = ix2 e k :=
  funext fun a => Fin.ext (by match a with | ⟨0, _⟩ => rfl | ⟨1, _⟩ => rfl)
private theorem ridx27 (e : Fin 640000) (d k : Fin 128) : ridx_main_v27 (ix2 e d) k = ix2 d k :=
  funext fun a => Fin.ext (by match a with | ⟨0, _⟩ => rfl | ⟨1, _⟩ => rfl)
private theorem idx28 (e : Fin 640000) (d : Fin 128) : idx_main_v28 (ix2 e d) = ix2 e (0 : Fin 1) :=
  funext fun a => Fin.ext (by match a with | ⟨0, _⟩ => rfl | ⟨1, _⟩ => rfl)
private theorem idx30 (e : Fin 640000) (k : Fin 128) : idx_main_v30 (ix1 e) k = ix2 e k :=
  funext fun a => Fin.ext (by match a with | ⟨0, _⟩ => rfl | ⟨1, _⟩ => rfl)
private theorem idx31 (e : Fin 640000) : idx_main_v31 (ix2 e (0 : Fin 1)) = ix1 e :=
  funext fun a => Fin.ext (by match a with | ⟨0, _⟩ => rfl)
private theorem idx34 (e : Fin 640000) (d : Fin 128) : idx_main_v34 (ix2 e d) = ix2 e (0 : Fin 1) :=
  funext fun a => Fin.ext (by match a with | ⟨0, _⟩ => rfl | ⟨1, _⟩ => rfl)
private theorem idx37 (e : Fin 640000) (k : Fin 128) : idx_main_v37 (ix1 e) k = ix2 e k :=
  funext fun a => Fin.ext (by match a with | ⟨0, _⟩ => rfl | ⟨1, _⟩ => rfl)
private theorem idx38 (e : Fin 640000) : idx_main_v38 (ix2 e (0 : Fin 1)) = ix1 e :=
  funext fun a => Fin.ext (by match a with | ⟨0, _⟩ => rfl)
private theorem idx41 (e : Fin 640000) (d : Fin 128) : idx_main_v41 (ix2 e d) = ix2 e (0 : Fin 1) :=
  funext fun a => Fin.ext (by match a with | ⟨0, _⟩ => rfl | ⟨1, _⟩ => rfl)
private theorem idx46 (e : Fin 640000) (d : Fin 128) : idx_main_v46 (ix2 e d) = ix2 e (0 : Fin 1) :=
  funext fun a => Fin.ext (by match a with | ⟨0, _⟩ => rfl | ⟨1, _⟩ => rfl)
private theorem idx49 (e : Fin 640000) (d : Fin 128) : idx_main_v49 (ix2 e d) = ix2 (0 : Fin 1) d :=
  funext fun a => Fin.ext (by match a with | ⟨0, _⟩ => rfl | ⟨1, _⟩ => rfl)
private theorem idx48 (d : Fin 128) : idx_main_v48 (ix2 (0 : Fin 1) d) = ix1 d :=
  funext fun a => Fin.ext (by match a with | ⟨0, _⟩ => rfl)
private theorem idx52 (e : Fin 640000) (d : Fin 128) : idx_main_v52 (ix2 e d) = ix2 (0 : Fin 1) d :=
  funext fun a => Fin.ext (by match a with | ⟨0, _⟩ => rfl | ⟨1, _⟩ => rfl)
private theorem idx51 (d : Fin 128) : idx_main_v51 (ix2 (0 : Fin 1) d) = ix1 d :=
  funext fun a => Fin.ext (by match a with | ⟨0, _⟩ => rfl)

section stages

variable (x0 : (⟨S40000x128, .f32⟩ : BufTy).Contents (Elt Ideal)) (x1 : (⟨S640000x128, .f32⟩ : BufTy).Contents (Elt Ideal)) (x2 : (⟨S640000x1, .f32⟩ : BufTy).Contents (Elt Ideal))
    (x4 : (⟨S128x384, .f32⟩ : BufTy).Contents (Elt Ideal)) (x5 : (⟨S128x128, .f32⟩ : BufTy).Contents (Elt Ideal)) (x6 x7 : (⟨S128, .f32⟩ : BufTy).Contents (Elt Ideal))
    (x8 x9 : (⟨S640000, .i32⟩ : BufTy).Contents (Elt Ideal))

/-- The scaled linear image (stage 29) at (e, d'). -/
private theorem lin_apply (e : Fin 640000) (d' : Fin 128) :
    val_main_v29 (F := Ideal) x0 x1 x2 x4 x5 x8 x9 (ix2 e d')
      = Cert.Spec.linRow (fun k => val_main_v26 (F := Ideal) x0 x1 x4 x8 x9 (ix2 e k)) (fun k d'' => x5 (ix2 d'' k))
          (x2 (ix2 e (0 : Fin 1))) d' := by
  rw [val_main_v29_apply, val_main_v27_apply, val_main_v28_apply]
  simp only [lidx27, ridx27, idx28, Ideal.mulf_def]
  rfl

/-- The row mean (stage 33) at (e, 0). -/
private theorem mean_apply (e : Fin 640000) :
    val_main_v33 (F := Ideal) x0 x1 x2 x4 x5 x8 x9 (ix2 e (0 : Fin 1))
      = Cert.Spec.meanRow (fun k => val_main_v26 (F := Ideal) x0 x1 x4 x8 x9 (ix2 e k)) (fun k d'' => x5 (ix2 d'' k))
          (x2 (ix2 e (0 : Fin 1))) := by
  rw [val_main_v33_apply, val_main_v31_apply, val_main_v32_apply, val_main_cst_6_apply, idx31, val_main_v30_apply,
    val_main_cst_5_apply]
  simp only [idx30, lin_apply, Ideal.hostDivf_def, Ideal.ofBits_def, Ideal.ofBits_zero_f32, zero_add]
  rfl

/-- The centred row as the variance reads it (stage 35) at (e, d'). -/
private theorem cenA_apply (e : Fin 640000) (d' : Fin 128) :
    val_main_v35 (F := Ideal) x0 x1 x2 x4 x5 x8 x9 (ix2 e d')
      = Cert.Spec.cenRow (fun k => val_main_v26 (F := Ideal) x0 x1 x4 x8 x9 (ix2 e k)) (fun k d'' => x5 (ix2 d'' k))
          (x2 (ix2 e (0 : Fin 1))) d' := by
  rw [val_main_v35_apply, val_main_v34_apply, idx34, lin_apply, mean_apply]
  rfl

/-- The centred row as the result reads it (stage 42) at (e, d'). -/
private theorem cenB_apply (e : Fin 640000) (d' : Fin 128) :
    val_main_v42 (F := Ideal) x0 x1 x2 x4 x5 x8 x9 (ix2 e d')
      = Cert.Spec.cenRow (fun k => val_main_v26 (F := Ideal) x0 x1 x4 x8 x9 (ix2 e k)) (fun k d'' => x5 (ix2 d'' k))
          (x2 (ix2 e (0 : Fin 1))) d' := by
  rw [val_main_v42_apply, val_main_v41_apply, idx41, lin_apply, mean_apply]
  rfl

/-- The row variance (stage 40) at (e, 0). -/
private theorem var_apply (e : Fin 640000) :
    val_main_v40 (F := Ideal) x0 x1 x2 x4 x5 x8 x9 (ix2 e (0 : Fin 1))
      = Cert.Spec.varRow (fun k => val_main_v26 (F := Ideal) x0 x1 x4 x8 x9 (ix2 e k)) (fun k d'' => x5 (ix2 d'' k))
          (x2 (ix2 e (0 : Fin 1))) := by
  rw [val_main_v40_apply, val_main_v38_apply, val_main_v39_apply, val_main_cst_8_apply, idx38, val_main_v37_apply,
    val_main_cst_7_apply]
  simp only [idx37, val_main_v36_apply, cenA_apply, Ideal.hostDivf_def, Ideal.mulf_def, Ideal.ofBits_def,
    Ideal.ofBits_zero_f32, zero_add]
  rfl

/-- The reciprocal root of the variance plus the constant (stage 45) at (e, 0). -/
private theorem rstd_apply (e : Fin 640000) :
    val_main_v45 (F := Ideal) x0 x1 x2 x4 x5 x8 x9 (ix2 e (0 : Fin 1))
      = Ideal.rsqrt (Cert.Spec.varRow (fun k => val_main_v26 (F := Ideal) x0 x1 x4 x8 x9 (ix2 e k))
          (fun k d'' => x5 (ix2 d'' k)) (x2 (ix2 e (0 : Fin 1))) + Cert.Spec.ceps) := by
  rw [val_main_v45_apply, val_main_v44_apply, val_main_v43_apply, val_main_cst_9_apply, var_apply]
  rfl

end stages

/-- Entry (e, d) of the reference's result, from the stage of the gathered node rows (stage 26) on. -/
theorem out_apply (x0 : (⟨S40000x128, .f32⟩ : BufTy).Contents (Elt Ideal)) (x1 : (⟨S640000x128, .f32⟩ : BufTy).Contents (Elt Ideal)) (x2 : (⟨S640000x1, .f32⟩ : BufTy).Contents (Elt Ideal))
    (x4 : (⟨S128x384, .f32⟩ : BufTy).Contents (Elt Ideal)) (x5 : (⟨S128x128, .f32⟩ : BufTy).Contents (Elt Ideal)) (x6 x7 : (⟨S128, .f32⟩ : BufTy).Contents (Elt Ideal))
    (x8 x9 : (⟨S640000, .i32⟩ : BufTy).Contents (Elt Ideal)) (e : Fin 640000) (d : Fin 128) :
    val_main_v54 (F := Ideal) x0 x1 x2 x4 x5 x6 x7 x8 x9 (ix2 e d)
      = Cert.Spec.updRow (fun k => val_main_v26 (F := Ideal) x0 x1 x4 x8 x9 (ix2 e k)) (fun k d' => x5 (ix2 d' k))
          (x2 (ix2 e (0 : Fin 1))) (fun d' => x6 (ix1 d')) (fun d' => x7 (ix1 d')) d := by
  rw [val_main_v54_apply, val_main_v53_apply, val_main_v50_apply, val_main_v47_apply, val_main_v46_apply, idx46,
    val_main_v49_apply, idx49, val_main_v48_apply, idx48, val_main_v52_apply, idx52, val_main_v51_apply, idx51,
    val_main_call1_v0_apply, val_main_call1_cst_apply, cenB_apply, rstd_apply]
  simp only [Ideal.maximumf_def, Ideal.addf_def, Ideal.mulf_def, Ideal.ofBits_def, Ideal.ofBits_zero_f32]
  rfl

end Cert.ReferenceIdeal.RefVal

end
-- ==== Proof.RefMsg.lean ====
/-
  The reference's message read at one entry: the inner product of the joined row (destination row, source row, edge
  row: 384 entries) with a row of the first weight matrix splits, by the position on the joined axis, into three inner
  products over 128 entries, added left to right; the rectifier is the maximum with zero.
-/
import proofs.«427158_j69784628625694_1_alg».proof.Proof.Gen.ReferenceIdeal.Read
import proofs.«427158_j69784628625694_1_alg».proof.Proof.Spec
import Idealize.ShloMosaic.Lib.ValueIdx
import Idealize.ShloMosaic.Lib.ValueLayout
import Mathlib.Algebra.BigOperators.Fin

noncomputable section

open scoped BigOperators

namespace Cert.ReferenceIdeal.RefVal

open Cert.ReferenceIdeal Cert.ReferenceIdeal.Read Idealize.ShloMosaic Idealize.ShloMosaic.ValueIdx

/-- The joined row (stage 14) at a position below 128 is the destination row (the first piece) at that position. -/
private theorem cat_lo (x0 : (⟨S40000x128, .f32⟩ : BufTy).Contents (Elt Ideal)) (x1 : (⟨S640000x128, .f32⟩ : BufTy).Contents (Elt Ideal))
    (x8 x9 : (⟨S640000, .i32⟩ : BufTy).Contents (Elt Ideal)) (e : Fin 640000) (k : Fin 128) :
    val_main_v14 (F := Ideal) x0 x1 x8 x9 (ix2 e (⟨k.val, by omega⟩ : Fin 384)) = val_main_v6 (F := Ideal) x0 x9 (ix2 e k) := by
  unfold val_main_v14
  refine concatenate_apply_piece (1 : Fin S640000x384.rank) _ _ _ 0 (by show 0 < 3; omega) S640000x128 _ rfl rfl 0 rfl (ix2 e k) ?_ ?_
  · -- off the joined axis the piece's coordinate is the joined row's
    intro b hb
    match b with
    | ⟨0, _⟩ => rfl
    | ⟨1, _⟩ => exact absurd rfl hb
  · -- on the joined axis: the extents before the piece plus the position inside it
    show 0 + k.val = k.val
    omega

/-- The joined row at position 128 + k is the source row (the second piece, after 128 entries) at k. -/
private theorem cat_mid (x0 : (⟨S40000x128, .f32⟩ : BufTy).Contents (Elt Ideal)) (x1 : (⟨S640000x128, .f32⟩ : BufTy).Contents (Elt Ideal))
    (x8 x9 : (⟨S640000, .i32⟩ : BufTy).Contents (Elt Ideal)) (e : Fin 640000) (k : Fin 128) :
    val_main_v14 (F := Ideal) x0 x1 x8 x9 (ix2 e (⟨128 + k.val, by omega⟩ : Fin 384)) = val_main_v13 (F := Ideal) x0 x8 (ix2 e k) := by
  unfold val_main_v14
  refine concatenate_apply_piece (1 : Fin S640000x384.rank) _ _ _ 1 (by show 1 < 3; omega) S640000x128 _ rfl rfl 128 rfl (ix2 e k) ?_ ?_
  · -- off the joined axis the piece's coordinate is the joined row's
    intro b hb
    match b with
    | ⟨0, _⟩ => rfl
    | ⟨1, _⟩ => exact absurd rfl hb
  · -- on the joined axis: the extents before the piece plus the position inside it
    show 128 + k.val = 128 + k.val
    omega

/-- The joined row at position 256 + k is the edge row (the third piece, after 128 + 128 entries) at k. -/
private theorem cat_hi (x0 : (⟨S40000x128, .f32⟩ : BufTy).Contents (Elt Ideal)) (x1 : (⟨S640000x128, .f32⟩ : BufTy).Contents (Elt Ideal))
    (x8 x9 : (⟨S640000, .i32⟩ : BufTy).Contents (Elt Ideal)) (e : Fin 640000) (k : Fin 128) :
    val_main_v14 (F := Ideal) x0 x1 x8 x9 (ix2 e (⟨256 + k.val, by omega⟩ : Fin 384)) = x1 (ix2 e k) := by
  unfold val_main_v14
  refine concatenate_apply_piece (1 : Fin S640000x384.rank) _ _ _ 2 (by show 2 < 3; omega) S640000x128 _ rfl rfl 256 rfl (ix2 e k) ?_ ?_
  · -- off the joined axis the piece's coordinate is the joined row's
    intro b hb
    match b with
    | ⟨0, _⟩ => rfl
    | ⟨1, _⟩ => exact absurd rfl hb
  · -- on the joined axis: the extents before the piece plus the position inside it
    show 256 + k.val = 256 + k.val
    omega

/-- A sum over 384 = (128 + 128) + 128 indices is the sum over the first 128, plus the sum over the middle 128, plus the
    sum over the last 128, added left to right; the extended reals are a commutative additive monoid, so nothing
    about finiteness is needed. -/
private theorem sum_384 (f : Fin 384 → EReal) :
    ∑ k : Fin 384, f k
      = (∑ k : Fin 128, f ⟨k.val, by omega⟩ + ∑ k : Fin 128, f ⟨128 + k.val, by omega⟩)
          + ∑ k : Fin 128, f ⟨256 + k.val, by omega⟩ := by
  -- 384 = 256 + 128: the first 256 indices, then the last 128
  have h1 := Fin.sum_univ_add (a := 256) (b := 128) (fun i : Fin (256 + 128) => f i)
  -- 256 = 128 + 128: the first 128 of those, then the next 128
  have h2 := Fin.sum_univ_add (a := 128) (b := 128) (fun i : Fin (128 + 128) => f (Fin.castAdd 128 i))
  exact h1.trans (congrArg (· + ∑ k : Fin 128, f ⟨256 + k.val, by omega⟩) h2)

/-- Entry (e, d) of the reference's message array (stage 16), from the two gathered arrays (stages 6 and 13), the edge
    array and the first weight matrix. -/
theorem msg_apply (x0 : (⟨S40000x128, .f32⟩ : BufTy).Contents (Elt Ideal)) (x1 : (⟨S640000x128, .f32⟩ : BufTy).Contents (Elt Ideal)) (x4 : (⟨S128x384, .f32⟩ : BufTy).Contents (Elt Ideal))
    (x8 x9 : (⟨S640000, .i32⟩ : BufTy).Contents (Elt Ideal)) (e : Fin 640000) (d : Fin 128) :
    val_main_v16 (F := Ideal) x0 x1 x4 x8 x9 (ix2 e d)
      = Cert.Spec.msgRow (fun k => val_main_v6 (F := Ideal) x0 x9 (ix2 e k)) (fun k => val_main_v13 (F := Ideal) x0 x8 (ix2 e k))
          (fun k => x1 (ix2 e k))
          (fun k d' => x4 (ix2 d' (⟨k.val, by omega⟩ : Fin 384)))
          (fun k d' => x4 (ix2 d' (⟨128 + k.val, by omega⟩ : Fin 384)))
          (fun k d' => x4 (ix2 d' (⟨256 + k.val, by omega⟩ : Fin 384))) d := by
  -- the inner product's operands at contraction index k: the joined row e at k, and row d of the weight matrix at k
  have hl : ∀ k : Fin 384, lidx_main_v15 (ix2 e d) k = ix2 e k := fun k =>
    funext fun a => Fin.ext (by match a with | ⟨0, _⟩ => rfl | ⟨1, _⟩ => rfl)
  have hr : ∀ k : Fin 384, ridx_main_v15 (ix2 e d) k = ix2 d k := fun k =>
    funext fun a => Fin.ext (by match a with | ⟨0, _⟩ => rfl | ⟨1, _⟩ => rfl)
  -- stage 16 is the maximum of stage 15 (the inner product over 384 entries) and the zero splat
  rw [val_main_v16_apply, val_main_v15_apply, val_main_call0_v0_apply, val_main_call0_cst_apply]
  unfold Cert.Spec.msgRow
  simp only [hl, hr]
  -- split the 384 terms by the piece of the joined row they read, and read each piece
  rw [sum_384 (fun k => val_main_v14 (F := Ideal) x0 x1 x8 x9 (ix2 e k) * x4 (ix2 d k))]
  simp only [cat_lo, cat_mid, cat_hi]
  -- the zero word is the extended real 0
  rw [Ideal.ofBits_def, Ideal.ofBits_zero_f32]
  rfl

end Cert.ReferenceIdeal.RefVal

end
-- ==== Proof.Bridge.lean ====
/-
  The two programs compute one function of the arguments.

  Both form, per edge, the message row from the destination node's row, the source node's row and the edge's row, add
  the message rows into a zero node table by the destination indices, take the table's rows by the source indices and
  normalise each taken row. They differ in three ways. The kernel takes rows with out-of-range rows filled, the
  reference clamps: where the index is in range both are the gathered row, and the source indices are in range by
  the precondition. For the destination indices nothing is assumed: a message row whose destination is out of range
  is dropped by the scatter in both programs, so the tables agree although such message rows differ. The kernel
  splits the inner product over 384 joined features into three over 128 and transposes the weight blocks on the
  host: the same sums. Everything else is operation for operation the same row function.
-/
import proofs.«427158_j69784628625694_1_alg».proof.Proof.HostVals
import proofs.«427158_j69784628625694_1_alg».proof.Proof.Final0
import proofs.«427158_j69784628625694_1_alg».proof.Proof.Final1
import proofs.«427158_j69784628625694_1_alg».proof.Proof.Scat
import proofs.«427158_j69784628625694_1_alg».proof.Proof.Layout
import proofs.«427158_j69784628625694_1_alg».proof.Proof.PreIdx
import proofs.«427158_j69784628625694_1_alg».proof.Proof.RefOut
import proofs.«427158_j69784628625694_1_alg».proof.Proof.RefMsg

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

/-! ## The two programs' records and index terms are the same -/

theorem gatherDims_eq : gather_S40000x128_S640000x1_S640000x128_1_0_n_n_0_1_1128
    = Cert.ReferenceIdeal.gather_S40000x128_S640000x1_S640000x128_1_0_n_n_0_1_1128 := rfl
theorem scatterDims_eq : scatter_S40000x128_S640000x1_S640000x128_1_0_0_1
    = Cert.ReferenceIdeal.scatter_S40000x128_S640000x1_S640000x128_1_0_0_1 := rfl
/-- The wrapped index column is the reference's, at each of its three gathers. -/
theorem wrapCol_eq_dst (idx : IVec S640000 32) : wrapCol idx = Cert.ReferenceIdeal.Read.val_main_v5 (F := Ideal) idx := rfl
theorem wrapCol_eq_src (idx : IVec S640000 32) : wrapCol idx = Cert.ReferenceIdeal.Read.val_main_v12 (F := Ideal) idx := rfl
theorem wrapCol_eq_node (idx : IVec S640000 32) : wrapCol idx = Cert.ReferenceIdeal.Read.val_main_v25 (F := Ideal) idx := rfl
theorem zeroTable_eq : (broadcastInDim S40000x128 ![] bcast_S_S40000x128 (constant (F := Ideal) S_ .f32 0x00000000#32))
    = Cert.ReferenceIdeal.Read.val_main_v17 (F := Ideal) := rfl
theorem dstCol_eq (idx : IVec S640000 32) : broadcastInDim S640000x1 ![0] bcast_S640000_S640000x1_0 idx
    = Cert.ReferenceIdeal.Read.val_main_v18 (F := Ideal) idx := rfl

variable [Cert.Pre_finite_inputs.Facts]
variable (m : (ℓ : Loc nD τ sig) → Buf (Elt Ideal) ℓ) (ρ : Dev nD → PrngReg) (hpre : Cert.Pre_KernelIdeal m)

/-! ## The message rows agree where the destination is in range -/

include hpre in
theorem msg_eq (c : Dev nD) (e : Fin 640000) (k : Fin 128)
    (h0 : 0 ≤ (argDst m c (ix1 e)).toInt) (h1 : (argDst m c (ix1 e)).toInt < 40000) :
    (W4 m ρ c (Proc.devRef .tc main_v8) : S640000x128.Idx → EReal) (ix2 e k)
      = Cert.ReferenceIdeal.Read.val_main_v16 (F := Ideal) (argX m c) (argH m c) (argW1 m c) (argSrc m c) (argDst m c) (ix2 e k) := by
  have hs := src_in_range m hpre c e
  rw [W4_v8, final0 (V3 m ρ) c e k, Cert.ReferenceIdeal.RefVal.msg_apply]
  have r0 : (fun k' : Fin 128 => (V3 m ρ c main_v0 : S640000x128.Idx → EReal) (ix2 e k'))
      = fun k' => Cert.ReferenceIdeal.Read.val_main_v6 (F := Ideal) (argX m c) (argDst m c) (ix2 e k') := funext fun k' => by
    rw [V3_v0, takeFill_row _ _ e k' h0 h1, gatherDims_eq, wrapCol_eq_dst]; rfl
  have r1 : (fun k' : Fin 128 => (V3 m ρ c main_v1 : S640000x128.Idx → EReal) (ix2 e k'))
      = fun k' => Cert.ReferenceIdeal.Read.val_main_v13 (F := Ideal) (argX m c) (argSrc m c) (ix2 e k') := funext fun k' => by
    rw [V3_v1, takeFill_row _ _ e k' hs.1 hs.2, gatherDims_eq, wrapCol_eq_src]; rfl
  have r2 : (fun k' : Fin 128 => (V3 m ρ c main_arg1 : S640000x128.Idx → EReal) (ix2 e k'))
      = fun k' => argH m c (ix2 e k') := by rw [V3_arg1]
  have b0 : (fun k' d' : Fin 128 => (V3 m ρ c main_v3 : S128x128.Idx → EReal) (ix2 k' d'))
      = fun k' d' => argW1 m c (ix2 d' (⟨k'.val, by omega⟩ : Fin 384)) := funext fun k' => funext fun d' => by
    rw [V3_v3, w1_lo_apply]
  have b1 : (fun k' d' : Fin 128 => (V3 m ρ c main_v5 : S128x128.Idx → EReal) (ix2 k' d'))
      = fun k' d' => argW1 m c (ix2 d' (⟨128 + k'.val, by omega⟩ : Fin 384)) := funext fun k' => funext fun d' => by
    rw [V3_v5, w1_mid_apply]
  have b2 : (fun k' d' : Fin 128 => (V3 m ρ c main_v7 : S128x128.Idx → EReal) (ix2 k' d'))
      = fun k' d' => argW1 m c (ix2 d' (⟨256 + k'.val, by omega⟩ : Fin 384)) := funext fun k' => funext fun d' => by
    rw [V3_v7, w1_hi_apply]
  rw [r0, r1, r2, b0, b1, b2]

/-! ## The node tables agree -/

include hpre in
theorem nodeTable_eq (c : Dev nD) :
    nodeTable m ρ c = Cert.ReferenceIdeal.Read.val_main_v19 (F := Ideal) (argX m c) (argH m c) (argW1 m c) (argSrc m c) (argDst m c) := by
  unfold nodeTable Cert.ReferenceIdeal.Read.val_main_v19
  rw [← scatterDims_eq, ← zeroTable_eq, ← dstCol_eq]
  refine scatterAdd_congr _ _ _ _ fun e k h0 h1 => ?_
  rw [col_apply] at h0 h1
  exact msg_eq m ρ hpre c e k h0 h1

/-! ## The results agree -/

include hpre in
theorem result_eq (c : Dev nD) :
    (W8 m ρ c (Proc.devRef .tc main_v16) : S640000x128.Idx → EReal)
      = Cert.ReferenceIdeal.Read.val_main_v54 (F := Ideal) (argX m c) (argH m c) (argSn m c) (argW1 m c) (argW2 m c) (argGa m c) (argBe m c) (argSrc m c) (argDst m c) := by
  funext i
  obtain ⟨e, d, rfl⟩ : ∃ (e : Fin 640000) (d : Fin 128), i = ix2 e d := ⟨i 0, i 1, eq_ix2 i⟩
  have hs := src_in_range m hpre c e
  rw [W8_v16, final1 (V7 m ρ) c e d, Cert.ReferenceIdeal.RefVal.out_apply]
  have g : (fun k : Fin 128 => (V7 m ρ c main_v12 : S640000x128.Idx → EReal) (ix2 e k))
      = fun k => Cert.ReferenceIdeal.Read.val_main_v26 (F := Ideal) (argX m c) (argH m c) (argW1 m c) (argSrc m c) (argDst m c) (ix2 e k) := funext fun k => by
    rw [V7_v12, takeFill_row _ _ e k hs.1 hs.2, nodeTable_eq m ρ hpre c, gatherDims_eq, wrapCol_eq_node]; rfl
  have w : (fun k d' : Fin 128 => (V7 m ρ c main_v13 : S128x128.Idx → EReal) (ix2 k d'))
      = fun k d' => argW2 m c (ix2 d' k) := funext fun k => funext fun d' => by
    rw [V7_v13, w2_apply]
  have s : (V7 m ρ c main_arg2 : S640000x1.Idx → EReal) (ix2 e (0 : Fin 1)) = argSn m c (ix2 e (0 : Fin 1)) := by
    rw [V7_arg2]
  have ga : (fun d' : Fin 128 => (V7 m ρ c main_v14 : S1x128.Idx → EReal) (ix2 (0 : Fin 1) d'))
      = fun d' => argGa m c (ix1 d') := funext fun d' => by rw [V7_v14, row_apply]
  have be : (fun d' : Fin 128 => (V7 m ρ c main_v15 : S1x128.Idx → EReal) (ix2 (0 : Fin 1) d'))
      = fun d' => argBe m c (ix1 d') := funext fun d' => by rw [V7_v15, row_apply]
  rw [g, w, s, ga, be]

end Cert.KernelIdeal.Val

end
-- ==== Proof.lean ====
/-
  One message-passing layer over a graph of 40000 nodes and 640000 edges with 128 features: per edge, the rectified
  linear image of the joined destination-node row, source-node row and edge row (384 features, first weight matrix);
  the messages summed per destination node; per edge, the summed row of its source node through the second weight
  matrix, scaled by the edge's norm factor, layer-normalised over the 128 features with gain and bias, rectified.

  The kernel program does the two dense stages in two gridded kernels over blocks of edge rows and leaves the row
  gathers and the scatter-add to host operations; the reference is host operations throughout. At the ideal values
  both are one function of the arguments, for source indices in the node range (the added precondition: outside it the
  reference itself indexes its node tables out of range): Proof/Bridge.lean. Nothing is asked of the destination indices: an
  edge whose destination is out of range contributes to no node in either program. No finiteness is used: the two
  sides differ only in how sums are grouped, and addition of extended reals is associative and commutative.

  The three frames: the kernel programs' from their launch theorem, the reference's from its run. The idealization
  rewrote nothing, so there is nothing to preserve.
-/
import proofs.«427158_j69784628625694_1_alg».proof.Defs
import proofs.«427158_j69784628625694_1_alg».proof.Proof.Gen.Kernel
import proofs.«427158_j69784628625694_1_alg».proof.Proof.Gen.Kernel.Frame
import proofs.«427158_j69784628625694_1_alg».proof.Proof.Gen.KernelIdeal
import proofs.«427158_j69784628625694_1_alg».proof.Proof.Gen.KernelIdeal.Frame
import proofs.«427158_j69784628625694_1_alg».proof.Proof.Gen.ReferenceIdeal
import proofs.«427158_j69784628625694_1_alg».proof.Proof.Gen.Pre_finite_inputs
import proofs.«427158_j69784628625694_1_alg».proof.Proof.Gen.ReferenceIdeal.Run
import proofs.«427158_j69784628625694_1_alg».proof.Proof.Gen.ReferenceIdeal.Read
import proofs.«427158_j69784628625694_1_alg».proof.Proof.KRun
import proofs.«427158_j69784628625694_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at one function of the arguments: the kernel program's result buffer after
    its second region, and the reference's last stage, which are equal entry by entry. -/
theorem algebraic : Cert.algebraic_KernelIdeal_ReferenceIdeal := by
  intro m ρ m' ρ' hpre hagree
  refine ⟨fun c => Cert.KernelIdeal.Gen.W8 m ρ c (Proc.devRef .tc Cert.KernelIdeal.main_v16),
    Cert.KernelIdeal.Val.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v54_eq, a0, a1, a2, a4, a5, a6, a7, a8, a9]
  exact (Cert.KernelIdeal.Val.result_eq m ρ hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
